-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x4096x512 : Shape := ⟨3, ![8, 4096, 512]⟩
abbrev S8x2048x2 : Shape := ⟨3, ![8, 2048, 2]⟩
abbrev S64x512 : Shape := ⟨2, ![64, 512]⟩
abbrev S512x512 : Shape := ⟨2, ![512, 512]⟩
abbrev S512 : Shape := ⟨1, ![512]⟩
abbrev S512x1024 : Shape := ⟨2, ![512, 1024]⟩
abbrev S2x512x512 : Shape := ⟨3, ![2, 512, 512]⟩
abbrev S2x512 : Shape := ⟨2, ![2, 512]⟩
abbrev S2x512x1024 : Shape := ⟨3, ![2, 512, 1024]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S2x512x1024 : S_.BroadcastsInDim S2x512x1024 (![] : Fin 0 → Fin S2x512x1024.rank)
  reducesTo_S2x512x1024_S_d0_1_2 : S2x512x1024.ReducesTo [0, 1, 2] S_

variable [Facts]

def fn_part5 {F : FTy → Type} [FloatOps F] (main_arg20 : FVec F S512 .f32) (main_v83 : IVec S_ 1) (main_v84 : FVec F S512x1024 .f32) (main_cst_32 : FVec F S_ .f32) : IVec S_ 1 :=
  let main_v85 : FVec F S512x1024 .f32 := broadcastInDim S512x1024 ![] bcast_S_S512x1024 main_cst_32
  let main_v86 : IVec S512x1024 1 := cmpf .olt main_v84 main_v85
  let main_c_33 : IVec S_ 1 := constantI S_ 1 1#1
  let main_v87 : IVec S_ 1 := (fun x v => Host.reduce IntOp.andi x v reducesTo_S512x1024_S_d0_1 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg16 : FVec F S512 .f32) (main_arg17 : FVec F S512x512 .f32) (main_arg18 : FVec F S512 .f32) (main_arg19 : FVec F S512x1024 .f32) (main_arg20 : FVec F S512 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg17
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg18
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x1024 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S512x512 .f32) (main_arg14 : FVec F S512 .f32) (main_arg15 : FVec F S512x1024 .f32) (main_arg16 : FVec F S512 .f32) (main_arg17 : FVec F S512x512 .f32) (main_arg18 : FVec F S512 .f32) (main_arg19 : FVec F S512x1024 .f32) (main_arg20 : FVec F S512 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S512x512 .f32 := Host.absf main_arg13
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x1024 .f32 := Host.absf main_arg15
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg16 main_arg17 main_arg18 main_arg19 main_arg20 main_v63 main_v67

def fn_part2 {F : FTy → Type} [FloatOps F] (main_arg9 : FVec F S2x512x512 .f32) (main_arg10 : FVec F S2x512 .f32) (main_arg11 : FVec F S2x512x1024 .f32) (main_arg12 : FVec F S2x512 .f32) (main_arg13 : FVec F S512x512 .f32) (main_arg14 : FVec F S512 .f32) (main_arg15 : FVec F S512x1024 .f32) (main_arg16 : FVec F S512 .f32) (main_arg17 : FVec F S512x512 .f32) (main_arg18 : FVec F S512 .f32) (main_arg19 : FVec F S512x1024 .f32) (main_arg20 : FVec F S512 .f32) (main_v33 : IVec S_ 1) : IVec S_ 1 :=
  let main_v34 : FVec F S2x512x512 .f32 := Host.absf main_arg9
  let main_cst_12 : FVec F S_ .f32 := constant S_ .f32 0x7F800000#32
  let main_v35 : FVec F S2x512x512 .f32 := broadcastInDim S2x512x512 ![] bcast_S_S2x512x512 main_cst_12
  let main_v36 : IVec S2x512x512 1 := cmpf .olt main_v34 main_v35
  let main_c_13 : IVec S_ 1 := constantI S_ 1 1#1
  let main_v37 : IVec S_ 1 := (fun x v => Host.reduce IntOp.andi x v reducesTo_S2x512x512_S_d0_1_2 h_S_) main_v36 main_c_13
  let main_v38 : IVec S_ 1 := andi main_v33 main_v37
  let main_v39 : FVec F S2x512 .f32 := Host.absf main_arg10
  let main_cst_14 : FVec F S_ .f32 := constant S_ .f32 0x7F800000#32
  let main_v40 : FVec F S2x512 .f32 := broadcastInDim S2x512 ![] bcast_S_S2x512 main_cst_14
  let main_v41 : IVec S2x512 1 := cmpf .olt main_v39 main_v40
  let main_c_15 : IVec S_ 1 := constantI S_ 1 1#1
  let main_v42 : IVec S_ 1 := (fun x v => Host.reduce IntOp.andi x v reducesTo_S2x512_S_d0_1 h_S_) main_v41 main_c_15
  let main_v43 : IVec S_ 1 := andi main_v38 main_v42
  let main_v44 : FVec F S2x512x1024 .f32 := Host.absf main_arg11
  let main_cst_16 : FVec F S_ .f32 := constant S_ .f32 0x7F800000#32
  let main_v45 : FVec F S2x512x1024 .f32 := broadcastInDim S2x512x1024 ![] bcast_S_S2x512x1024 main_cst_16
  let main_v46 : IVec S2x512x1024 1 := cmpf .olt main_v44 main_v45
  let main_c_17 : IVec S_ 1 := constantI S_ 1 1#1
  let main_v47 : IVec S_ 1 := (fun x v => Host.reduce IntOp.andi x v reducesTo_S2x512x1024_S_d0_1_2 h_S_) main_v46 main_c_17
  let main_v48 : IVec S_ 1 := andi main_v43 main_v47
  let main_v49 : FVec F S2x512 .f32 := Host.absf main_arg12
  let main_cst_18 : FVec F S_ .f32 := constant S_ .f32 0x7F800000#32
  let main_v50 : FVec F S2x512 .f32 := broadcastInDim S2x512 ![] bcast_S_S2x512 main_cst_18
  fn_part3 (F := F) main_arg13 main_arg14 main_arg15 main_arg16 main_arg17 main_arg18 main_arg19 main_arg20 main_v48 main_v49 main_v50

def fn_part1 {F : FTy → Type} [FloatOps F] (main_arg6 : FVec F S512 .f32) (main_arg7 : FVec F S512x1024 .f32) (main_arg8 : FVec F S512 .f32) (main_arg9 : FVec F S2x512x512 .f32) (main_arg10 : FVec F S2x512 .f32) (main_arg11 : FVec F S2x512x1024 .f32) (main_arg12 : FVec F S2x512 .f32) (main_arg13 : FVec F S512x512 .f32) (main_arg14 : FVec F S512 .f32) (main_arg15 : FVec F S512x1024 .f32) (main_arg16 : FVec F S512 .f32) (main_arg17 : FVec F S512x512 .f32) (main_arg18 : FVec F S512 .f32) (main_arg19 : FVec F S512x1024 .f32) (main_arg20 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg7
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : IVec S8x2048 32) (main_arg1 : FVec F S8x4096x512 .f32) (main_arg2 : FVec F S8x4096x512 .f32) (main_arg3 : IVec S8x2048x2 32) (main_arg4 : FVec F S64x512 .f32) (main_arg5 : FVec F S512x512 .f32) (main_arg6 : FVec F S512 .f32) (main_arg7 : FVec F S512x1024 .f32) (main_arg8 : FVec F S512 .f32) (main_arg9 : FVec F S2x512x512 .f32) (main_arg10 : FVec F S2x512 .f32) (main_arg11 : FVec F S2x512x1024 .f32) (main_arg12 : FVec F S2x512 .f32) (main_arg13 : FVec F S512x512 .f32) (main_arg14 : FVec F S512 .f32) (main_arg15 : FVec F S512x1024 .f32) (main_arg16 : FVec F S512 .f32) (main_arg17 : FVec F S512x512 .f32) (main_arg18 : FVec F S512 .f32) (main_arg19 : FVec F S512x1024 .f32) (main_arg20 : FVec F S512 .f32) : IVec S_ 1 :=
  let main_v0 : FVec F S8x4096x512 .f32 := Host.absf main_arg1
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg2
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S64x512 .f32 := Host.absf main_arg4
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S8x2048 : Shape := ⟨2, ![8, 2048]⟩
abbrev S8x4096x512 : Shape := ⟨3, ![8, 4096, 512]⟩
abbrev S8x2048x2 : Shape := ⟨3, ![8, 2048, 2]⟩
abbrev S64x512 : Shape := ⟨2, ![64, 512]⟩
abbrev S512x512 : Shape := ⟨2, ![512, 512]⟩
abbrev S512 : Shape := ⟨1, ![512]⟩
abbrev S512x1024 : Shape := ⟨2, ![512, 1024]⟩
abbrev S2x512x512 : Shape := ⟨3, ![2, 512, 512]⟩
abbrev S2x512 : Shape := ⟨2, ![2, 512]⟩
abbrev S2x512x1024 : Shape := ⟨3, ![2, 512, 1024]⟩
abbrev S8x4096 : Shape := ⟨2, ![8, 4096]⟩
abbrev S_ : Shape := ⟨0, ![]⟩
abbrev S8x2048x1 : Shape := ⟨3, ![8, 2048, 1]⟩
abbrev S8x2048x512 : Shape := ⟨3, ![8, 2048, 512]⟩
abbrev S8x4096x1 : Shape := ⟨3, ![8, 4096, 1]⟩
abbrev S1 : Shape := ⟨1, ![1]⟩
abbrev S1x1x1 : Shape := ⟨3, ![1, 1, 1]⟩
abbrev S8x2048x2x512 : Shape := ⟨4, ![8, 2048, 2, 512]⟩
abbrev S8x2048x1024 : Shape := ⟨3, ![8, 2048, 1024]⟩
abbrev S8x2048x1536 : Shape := ⟨3, ![8, 2048, 1536]⟩
abbrev S1024x512 : Shape := ⟨2, ![1024, 512]⟩
abbrev S1536x512 : Shape := ⟨2, ![1536, 512]⟩
abbrev S1x512 : Shape := ⟨2, ![1, 512]⟩
abbrev S1024x1024 : Shape := ⟨2, ![1024, 1024]⟩
abbrev S1536x1024 : Shape := ⟨2, ![1536, 1024]⟩
abbrev S1024 : Shape := ⟨1, ![1024]⟩
abbrev S1x1024 : Shape := ⟨2, ![1, 1024]⟩
abbrev S1x512x1536 : Shape := ⟨3, ![1, 512, 1536]⟩
abbrev S1x512x1024 : Shape := ⟨3, ![1, 512, 1024]⟩
abbrev S1x512x512 : Shape := ⟨3, ![1, 512, 512]⟩
abbrev S512x1536 : Shape := ⟨2, ![512, 1536]⟩

abbrev nBuf : Space → Nat
  | .hbm => 113
  | .vmem => 16
  | .smem => 0
  | _ => 0

abbrev bufTy : (tb : Table) → Fin (tcTables nBuf tb) → BufTy
  | .hbm, ⟨0, _⟩ => ⟨S8x2048, .i32⟩
  | .hbm, ⟨1, _⟩ => ⟨S8x4096x512, .f32⟩
  | .hbm, ⟨2, _⟩ => ⟨S8x4096x512, .f32⟩
  | .hbm, ⟨3, _⟩ => ⟨S8x2048x2, .i32⟩
  | .hbm, ⟨4, _⟩ => ⟨S64x512, .f32⟩
  | .hbm, ⟨5, _⟩ => ⟨S512x512, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2x512x512, .f32⟩
  | .hbm, ⟨10, _⟩ => ⟨S2x512, .f32⟩
  | .hbm, ⟨11, _⟩ => ⟨S2x512x1024, .f32⟩
  | .hbm, ⟨12, _⟩ => ⟨S2x512, .f32⟩
  | .hbm, ⟨13, _⟩ => ⟨S512x512, .f32⟩
  | .hbm, ⟨14, _⟩ => ⟨S512, .f32⟩
  | .hbm, ⟨15, _⟩ => ⟨S512x1024, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x1024, .f32⟩
  | .hbm, ⟨20, _⟩ => ⟨S512, .f32⟩
  | .hbm, ⟨21, _⟩ => ⟨S8x4096, .i32⟩
  | .hbm, ⟨22, _⟩ => ⟨S_, .i32⟩
  | .hbm, ⟨23, _⟩ => ⟨S8x2048, .i32⟩
  | .hbm, ⟨24, _⟩ => ⟨S8x2048, .i1⟩
  | .hbm, ⟨25, _⟩ => ⟨S_, .i32⟩
  | .hbm, ⟨26, _⟩ => ⟨S8x2048, .i32⟩
  | .hbm, ⟨27, _⟩ => ⟨S8x2048, .i32⟩
  | .hbm, ⟨28, _⟩ => ⟨S8x2048, .i32⟩
  | .hbm, ⟨29, _⟩ => ⟨S8x2048x1, .i32⟩
  | .hbm, ⟨30, _⟩ => ⟨S8x2048x512, .f32⟩
  | .hbm, ⟨31, _⟩ => ⟨S8x4096x1, .i32⟩
  | .hbm, ⟨32, _⟩ => ⟨S_, .i32⟩
  | .hbm, ⟨33, _⟩ => ⟨S8x4096x1, .i32⟩
  | .hbm, ⟨34, _⟩ => ⟨S8x4096x1, .i1⟩
  | .hbm, ⟨35, _⟩ => ⟨S_, .i32⟩
  | .hbm, ⟨36, _⟩ => ⟨S8x4096x1, .i32⟩
  | .hbm, ⟨37, _⟩ => ⟨S8x4096x1, .i32⟩
  | .hbm, ⟨38, _⟩ => ⟨S8x4096x1, .i32⟩
  | .hbm, ⟨39, _⟩ => ⟨S1, .i32⟩
  | .hbm, ⟨40, _⟩ => ⟨S_, .i32⟩
  | .hbm, ⟨41, _⟩ => ⟨S8x4096x1, .i32⟩
  | .hbm, ⟨42, _⟩ => ⟨S8x4096x1, .i1⟩
  | .hbm, ⟨43, _⟩ => ⟨S1x1x1, .i32⟩
  | .hbm, ⟨44, _⟩ => ⟨S8x4096x1, .i32⟩
  | .hbm, ⟨45, _⟩ => ⟨S8x4096x1, .i1⟩
  | .hbm, ⟨46, _⟩ => ⟨S8x4096x1, .i1⟩
  | .hbm, ⟨47, _⟩ => ⟨S_, .i1⟩
  | .hbm, ⟨48, _⟩ => ⟨S8x4096, .i1⟩
  | .hbm, ⟨49, _⟩ => ⟨S8x4096x512, .f32⟩
  | .hbm, ⟨50, _⟩ => ⟨S8x4096x512, .i1⟩
  | .hbm, ⟨51, _⟩ => ⟨S_, .f32⟩
  | .hbm, ⟨52, _⟩ => ⟨S8x4096x512, .f32⟩
  | .hbm, ⟨53, _⟩ => ⟨S8x4096x512, .f32⟩
  | .hbm, ⟨54, _⟩ => ⟨S8x2048x2x512, .f32⟩
  | .hbm, ⟨55, _⟩ => ⟨S8x4096x1, .i32⟩
  | .hbm, ⟨56, _⟩ => ⟨S_, .i32⟩
  | .hbm, ⟨57, _⟩ => ⟨S8x4096x1, .i32⟩
  | .hbm, ⟨58, _⟩ => ⟨S8x4096x1, .i1⟩
  | .hbm, ⟨59, _⟩ => ⟨S_, .i32⟩
  | .hbm, ⟨60, _⟩ => ⟨S8x4096x1, .i32⟩
  | .hbm, ⟨61, _⟩ => ⟨S8x4096x1, .i32⟩
  | .hbm, ⟨62, _⟩ => ⟨S8x4096x1, .i32⟩
  | .hbm, ⟨63, _⟩ => ⟨S1, .i32⟩
  | .hbm, ⟨64, _⟩ => ⟨S_, .i32⟩
  | .hbm, ⟨65, _⟩ => ⟨S8x4096x1, .i32⟩
  | .hbm, ⟨66, _⟩ => ⟨S8x4096x1, .i1⟩
  | .hbm, ⟨67, _⟩ => ⟨S1x1x1, .i32⟩
  | .hbm, ⟨68, _⟩ => ⟨S8x4096x1, .i32⟩
  | .hbm, ⟨69, _⟩ => ⟨S8x4096x1, .i1⟩
  | .hbm, ⟨70, _⟩ => ⟨S8x4096x1, .i1⟩
  | .hbm, ⟨71, _⟩ => ⟨S_, .i1⟩
  | .hbm, ⟨72, _⟩ => ⟨S8x4096, .i1⟩
  | .hbm, ⟨73, _⟩ => ⟨S8x4096x512, .f32⟩
  | .hbm, ⟨74, _⟩ => ⟨S8x4096x512, .i1⟩
  | .hbm, ⟨75, _⟩ => ⟨S_, .f32⟩
  | .hbm, ⟨76, _⟩ => ⟨S8x4096x512, .f32⟩
  | .hbm, ⟨77, _⟩ => ⟨S8x4096x512, .f32⟩
  | .hbm, ⟨78, _⟩ => ⟨S8x2048x2x512, .f32⟩
  | .hbm, ⟨79, _⟩ => ⟨S8x2048x1024, .f32⟩
  | .hbm, ⟨80, _⟩ => ⟨S8x2048x1024, .f32⟩
  | .hbm, ⟨81, _⟩ => ⟨S8x2048x1536, .f32⟩
  | .hbm, ⟨82, _⟩ => ⟨S8x2048x1536, .bf16⟩
  | .hbm, ⟨83, _⟩ => ⟨S512x512, .f32⟩
  | .hbm, ⟨84, _⟩ => ⟨S1024x512, .f32⟩
  | .hbm, ⟨85, _⟩ => ⟨S1536x512, .f32⟩
  | .hbm, ⟨86, _⟩ => ⟨S1536x512, .bf16⟩
  | .hbm, ⟨87, _⟩ => ⟨S512, .f32⟩
  | .hbm, ⟨88, _⟩ => ⟨S1x512, .f32⟩
  | .hbm, ⟨89, _⟩ => ⟨S1024x512, .f32⟩
  | .hbm, ⟨90, _⟩ => ⟨S1024x1024, .f32⟩
  | .hbm, ⟨91, _⟩ => ⟨S512x1024, .f32⟩
  | .hbm, ⟨92, _⟩ => ⟨S1024x1024, .f32⟩
  | .hbm, ⟨93, _⟩ => ⟨S1536x1024, .f32⟩
  | .hbm, ⟨94, _⟩ => ⟨S1536x1024, .bf16⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1x1024, .f32⟩
  | .hbm, ⟨99, _⟩ => ⟨S512x512, .f32⟩
  | .hbm, ⟨100, _⟩ => ⟨S1024x512, .f32⟩
  | .hbm, ⟨101, _⟩ => ⟨S1536x512, .f32⟩
  | .hbm, ⟨102, _⟩ => ⟨S1536x512, .bf16⟩
  | .hbm, ⟨103, _⟩ => ⟨S512, .f32⟩
  | .hbm, ⟨104, _⟩ => ⟨S1x512, .f32⟩
  | .hbm, ⟨105, _⟩ => ⟨S512x512, .f32⟩
  | .hbm, ⟨106, _⟩ => ⟨S1024x512, .f32⟩
  | .hbm, ⟨107, _⟩ => ⟨S1536x512, .f32⟩
  | .hbm, ⟨108, _⟩ => ⟨S1536x512, .bf16⟩
  | .hbm, ⟨109, _⟩ => ⟨S512, .f32⟩
  | .hbm, ⟨110, _⟩ => ⟨S1x512, .f32⟩
  | .hbm, ⟨111, _⟩ => ⟨S8x2048x512, .f32⟩
  | .hbm, ⟨112, _⟩ => ⟨S8x2048x512, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1024, .f32⟩
  | .local _ .vmem, ⟨3, _⟩ => ⟨S1x512x1024, .f32⟩
  | .local _ .vmem, ⟨4, _⟩ => ⟨S1536x512, .bf16⟩
  | .local _ .vmem, ⟨5, _⟩ => ⟨S1x512, .f32⟩
  | .local _ .vmem, ⟨6, _⟩ => ⟨S1536x1024, .bf16⟩
  | .local _ .vmem, ⟨7, _⟩ => ⟨S1x1024, .f32⟩
  | .local _ .vmem, ⟨8, _⟩ => ⟨S1536x512, .bf16⟩
  | .local _ .vmem, ⟨9, _⟩ => ⟨S1x512, .f32⟩
  | .local _ .vmem, ⟨10, _⟩ => ⟨S1536x512, .bf16⟩
  | .local _ .vmem, ⟨11, _⟩ => ⟨S1x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_c_2 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_c_3 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46_0 : Ref sig .tc := ⟨.hbm, 111, rfl⟩
abbrev main_v46_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1536x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S8x2048x2_S8x4096 : S8x2048x2.ShapeCasts S8x4096
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  h_S_ : 0 < S_.numel
  bcast_S8x4096_S8x4096x512_0_1 : S8x4096.BroadcastsInDim S8x4096x512 (![0, 1] : Fin 2 → Fin S8x4096x512.rank)
  bcast_S_S8x4096x512 : S_.BroadcastsInDim S8x4096x512 (![] : Fin 0 → Fin S8x4096x512.rank)
  shapeCasts_S8x4096x512_S8x2048x2x512 : S8x4096x512.ShapeCasts S8x2048x2x512
  shapeCasts_S8x2048x2x512_S8x2048x1024 : S8x2048x2x512.ShapeCasts S8x2048x1024
  concatenates_S8x2048x512_S8x2048x1024_S8x2048x1536_d2 : Shape.Concatenates [S8x2048x512, S8x2048x1024] S8x2048x1536 2
  bitsLt_bf16_f32 : FTy.bits .bf16 < FTy.bits .f32
  transposes_S512x512_S512x512_1_0 : S512x512.Transposes [1, 0] S512x512
  transposes_S512x1024_S1024x512_1_0 : S512x1024.Transposes [1, 0] S1024x512
  concatenates_S512x512_S1024x512_S1536x512_d0 : Shape.Concatenates [S512x512, S1024x512] S1536x512 0
  shapeCasts_S512_S1x512 : S512.ShapeCasts S1x512
  shapeCasts_S2x512x512_S1024x512 : S2x512x512.ShapeCasts S1024x512
  shapeCasts_S2x512x1024_S1024x1024 : S2x512x1024.ShapeCasts S1024x1024
  transposes_S1024x512_S512x1024_1_0 : S1024x512.Transposes [1, 0] S512x1024
  transposes_S1024x1024_S1024x1024_1_0 : S1024x1024.Transposes [1, 0] S1024x1024
  concatenates_S512x1024_S1024x1024_S1536x1024_d0 : Shape.Concatenates [S512x1024, S1024x1024] S1536x1024 0
  shapeCasts_S2x512_S1024 : S2x512.ShapeCasts S1024
  shapeCasts_S1024_S1x1024 : S1024.ShapeCasts S1x1024
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  gather_S64x512_S8x2048x1_S8x2048x512_2_0_n_n_0_2_1512_wf : GatherDims.WF S64x512 S8x2048x1 S8x2048x512 [2] [0] [] [0] [] 2 ![1, 512]
  gather_S8x4096x512_S8x4096x1_S8x4096x512_2_1_0_0_1_2_11512_wf : GatherDims.WF S8x4096x512 S8x4096x1 S8x4096x512 [2] [1] [0] [1] [0] 2 ![1, 1, 512]
  dot_S512x1536_S1536x512_S512x512_1_0_0_1_n_n_wf : DotDims.WF S512x1536 S1536x512 S512x512 [1] [0] [0] [1] [] []
  dot_S512x1536_S1536x1024_S512x1024_1_0_0_1_n_n_wf : DotDims.WF S512x1536 S1536x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S8x2048x1536.size a
  hwx0_0 : ∀ i : grid0.Coords, EltTy.bits .bf16 = 32 ∨ (Rect.block (s := S8x2048x1536) S1x512x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x512.size a ≤ S1536x512.size a
  hwx0_2 : ∀ i : grid0.Coords, EltTy.bits .bf16 = 32 ∨ (Rect.block (s := S1536x512) S1536x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x1024.size a ≤ S1536x1024.size a
  hwx0_4 : ∀ i : grid0.Coords, EltTy.bits .bf16 = 32 ∨ (Rect.block (s := S1536x1024) S1536x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x512.size a ≤ S1536x512.size a
  hwx0_6 : ∀ i : grid0.Coords, EltTy.bits .bf16 = 32 ∨ (Rect.block (s := S1536x512) S1536x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536x512.size a ≤ S1536x512.size a
  hwx0_8 : ∀ i : grid0.Coords, EltTy.bits .bf16 = 32 ∨ (Rect.block (s := S1536x512) S1536x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S8x2048x512.size a
  hwx0_10 : ∀ i : grid0.Coords, EltTy.bits .f32 = 32 ∨ (Rect.block (s := S8x2048x512) S1x512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x512.size a ≤ S8x2048x512.size a
  hwx0_11 : ∀ i : grid0.Coords, EltTy.bits .f32 = 32 ∨ (Rect.block (s := S8x2048x512) S1x512x512.size (cc0_transform_11 i) (hinb0_11 i)).WholeWords (EltTy.packing .f32)

variable [Facts₀]

def gather_S64x512_S8x2048x1_S8x2048x512_2_0_n_n_0_2_1512 : GatherDims S64x512 S8x2048x1 S8x2048x512 where
  offsetDims := [2]
  collapsedSliceDims := [0]
  operandBatchingDims := []
  startIndicesBatchingDims := []
  startIndexMap := [0]
  indexVectorDim := 2
  sliceSizes := ![1, 512]
  wf := gather_S64x512_S8x2048x1_S8x2048x512_2_0_n_n_0_2_1512_wf
def gather_S8x4096x512_S8x4096x1_S8x4096x512_2_1_0_0_1_2_11512 : GatherDims S8x4096x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x4096x512_S8x4096x1_S8x4096x512_2_1_0_0_1_2_11512_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def dot_S512x1536_S1536x1024_S512x1024_1_0_0_1_n_n : DotDims S512x1536 S1536x1024 S512x1024 where
  lhsContracting := [1]
  rhsContracting := [0]
  lhsNonContracting := [0]
  rhsNonContracting := [1]
  lhsBatch := []
  rhsBatch := []
  wf := dot_S512x1536_S1536x1024_S512x1024_1_0_0_1_n_n_wf

abbrev win0_0 : Pipeline.Window sig grid0 :=
  Pipeline.Window.ofSpec (Memref.whole main_v17) S1x512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1536x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1536x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1536x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S1536x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46_0) S1x512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v46_1) S1x512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x2048 : Shape := ⟨2, ![8, 2048]⟩
abbrev S8x4096x512 : Shape := ⟨3, ![8, 4096, 512]⟩
abbrev S8x2048x2 : Shape := ⟨3, ![8, 2048, 2]⟩
abbrev S64x512 : Shape := ⟨2, ![64, 512]⟩
abbrev S512x512 : Shape := ⟨2, ![512, 512]⟩
abbrev S512 : Shape := ⟨1, ![512]⟩
abbrev S512x1024 : Shape := ⟨2, ![512, 1024]⟩
abbrev S2x512x512 : Shape := ⟨3, ![2, 512, 512]⟩
abbrev S2x512 : Shape := ⟨2, ![2, 512]⟩
abbrev S2x512x1024 : Shape := ⟨3, ![2, 512, 1024]⟩
abbrev S8x4096 : Shape := ⟨2, ![8, 4096]⟩
abbrev S_ : Shape := ⟨0, ![]⟩
abbrev S8x2048x1 : Shape := ⟨3, ![8, 2048, 1]⟩
abbrev S8x2048x512 : Shape := ⟨3, ![8, 2048, 512]⟩
abbrev S8x4096x1 : Shape := ⟨3, ![8, 4096, 1]⟩
abbrev S1 : Shape := ⟨1, ![1]⟩
abbrev S1x1x1 : Shape := ⟨3, ![1, 1, 1]⟩
abbrev S8x2048x2x512 : Shape := ⟨4, ![8, 2048, 2, 512]⟩
abbrev S8x2048x1024 : Shape := ⟨3, ![8, 2048, 1024]⟩
abbrev S1x1x512 : Shape := ⟨3, ![1, 1, 512]⟩
abbrev S1x1x2x512 : Shape := ⟨4, ![1, 1, 2, 512]⟩

abbrev nBuf : Space → Nat
  | .hbm => 148
  | .vmem => 0
  | .smem => 0
  | _ => 0

abbrev hbmTy0_0 (i : Nat) : BufTy := match i % 128 with
  | 0 => ⟨S8x2048, .i32⟩
  | 1 => ⟨S8x4096x512, .f32⟩
  | 2 => ⟨S8x4096x512, .f32⟩
  | 3 => ⟨S8x2048x2, .i32⟩
  | 4 => ⟨S64x512, .f32⟩
  | 5 => ⟨S512x512, .f32⟩
  | 6 => ⟨S512, .f32⟩
  | 7 => ⟨S512x1024, .f32⟩
  | 8 => ⟨S512, .f32⟩
  | 9 => ⟨S2x512x512, .f32⟩
  | 10 => ⟨S2x512, .f32⟩
  | 11 => ⟨S2x512x1024, .f32⟩
  | 12 => ⟨S2x512, .f32⟩
  | 13 => ⟨S512x512, .f32⟩
  | 14 => ⟨S512, .f32⟩
  | 15 => ⟨S512x1024, .f32⟩
  | 16 => ⟨S512, .f32⟩
  | 17 => ⟨S512x512, .f32⟩
  | 18 => ⟨S512, .f32⟩
  | 19 => ⟨S512x1024, .f32⟩
  | 20 => ⟨S512, .f32⟩
  | 21 => ⟨S8x4096, .i32⟩
  | 22 => ⟨S_, .i32⟩
  | 23 => ⟨S8x2048, .i32⟩
  | 24 => ⟨S8x2048, .i1⟩
  | 25 => ⟨S_, .i32⟩
  | 26 => ⟨S8x2048, .i32⟩
  | 27 => ⟨S8x2048, .i32⟩
  | 28 => ⟨S8x2048, .i32⟩
  | 29 => ⟨S8x2048x1, .i32⟩
  | 30 => ⟨S8x2048x512, .f32⟩
  | 31 => ⟨S8x4096x1, .i32⟩
  | 32 => ⟨S_, .i32⟩
  | 33 => ⟨S8x4096x1, .i32⟩
  | 34 => ⟨S8x4096x1, .i1⟩
  | 35 => ⟨S_, .i32⟩
  | 36 => ⟨S8x4096x1, .i32⟩
  | 37 => ⟨S8x4096x1, .i32⟩
  | 38 => ⟨S8x4096x1, .i32⟩
  | 39 => ⟨S1, .i32⟩
  | 40 => ⟨S_, .i32⟩
  | 41 => ⟨S8x4096x1, .i32⟩
  | 42 => ⟨S8x4096x1, .i1⟩
  | 43 => ⟨S1x1x1, .i32⟩
  | 44 => ⟨S8x4096x1, .i32⟩
  | 45 => ⟨S8x4096x1, .i1⟩
  | 46 => ⟨S8x4096x1, .i1⟩
  | 47 => ⟨S_, .i1⟩
  | 48 => ⟨S8x4096, .i1⟩
  | 49 => ⟨S8x4096x512, .f32⟩
  | 50 => ⟨S8x4096x512, .i1⟩
  | 51 => ⟨S_, .f32⟩
  | 52 => ⟨S8x4096x512, .f32⟩
  | 53 => ⟨S8x4096x512, .f32⟩
  | 54 => ⟨S8x2048x2x512, .f32⟩
  | 55 => ⟨S8x4096x1, .i32⟩
  | 56 => ⟨S_, .i32⟩
  | 57 => ⟨S8x4096x1, .i32⟩
  | 58 => ⟨S8x4096x1, .i1⟩
  | 59 => ⟨S_, .i32⟩
  | 60 => ⟨S8x4096x1, .i32⟩
  | 61 => ⟨S8x4096x1, .i32⟩
  | 62 => ⟨S8x4096x1, .i32⟩
  | 63 => ⟨S1, .i32⟩
  | 64 => ⟨S_, .i32⟩
  | 65 => ⟨S8x4096x1, .i32⟩
  | 66 => ⟨S8x4096x1, .i1⟩
  | 67 => ⟨S1x1x1, .i32⟩
  | 68 => ⟨S8x4096x1, .i32⟩
  | 69 => ⟨S8x4096x1, .i1⟩
  | 70 => ⟨S8x4096x1, .i1⟩
  | 71 => ⟨S_, .i1⟩
  | 72 => ⟨S8x4096, .i1⟩
  | 73 => ⟨S8x4096x512, .f32⟩
  | 74 => ⟨S8x4096x512, .i1⟩
  | 75 => ⟨S_, .f32⟩
  | 76 => ⟨S8x4096x512, .f32⟩
  | 77 => ⟨S8x4096x512, .f32⟩
  | 78 => ⟨S8x2048x2x512, .f32⟩
  | 79 => ⟨S8x2048x1024, .f32⟩
  | 80 => ⟨S8x2048x512, .f32⟩
  | 81 => ⟨S1x1x512, .f32⟩
  | 82 => ⟨S8x2048x512, .f32⟩
  | 83 => ⟨S8x2048x512, .f32⟩
  | 84 => ⟨S8x2048x512, .f32⟩
  | 85 => ⟨S1x1x512, .f32⟩
  | 86 => ⟨S8x2048x512, .f32⟩
  | 87 => ⟨S8x2048x512, .f32⟩
  | 88 => ⟨S8x2048x512, .f32⟩
  | 89 => ⟨S8x2048x512, .f32⟩
  | 90 => ⟨S8x2048x512, .f32⟩
  | 91 => ⟨S_, .f32⟩
  | 92 => ⟨S8x2048x512, .f32⟩
  | 93 => ⟨S8x2048x512, .f32⟩
  | 94 => ⟨S_, .f32⟩
  | 95 => ⟨S8x2048x512, .f32⟩
  | 96 => ⟨S8x2048x512, .f32⟩
  | 97 => ⟨S8x2048x2x512, .f32⟩
  | 98 => ⟨S1x1x2x512, .f32⟩
  | 99 => ⟨S8x2048x2x512, .f32⟩
  | 100 => ⟨S8x2048x2x512, .f32⟩
  | 101 => ⟨S8x2048x2x512, .f32⟩
  | 102 => ⟨S8x2048x2x512, .f32⟩
  | 103 => ⟨S1x1x2x512, .f32⟩
  | 104 => ⟨S8x2048x2x512, .f32⟩
  | 105 => ⟨S8x2048x2x512, .f32⟩
  | 106 => ⟨S8x2048x2x512, .f32⟩
  | 107 => ⟨S8x2048x2x512, .f32⟩
  | 108 => ⟨S_, .f32⟩
  | 109 => ⟨S8x2048x2x512, .f32⟩
  | 110 => ⟨S8x2048x2x512, .f32⟩
  | 111 => ⟨S_, .f32⟩
  | 112 => ⟨S8x2048x2x512, .f32⟩
  | 113 => ⟨S8x2048x2x512, .f32⟩
  | 114 => ⟨S8x2048x512, .f32⟩
  | 115 => ⟨S1x1x512, .f32⟩
  | 116 => ⟨S8x2048x512, .f32⟩
  | 117 => ⟨S8x2048x512, .f32⟩
  | 118 => ⟨S8x2048x512, .f32⟩
  | 119 => ⟨S1x1x512, .f32⟩
  | 120 => ⟨S8x2048x512, .f32⟩
  | 121 => ⟨S8x2048x512, .f32⟩
  | 122 => ⟨S8x2048x512, .f32⟩
  | 123 => ⟨S8x2048x512, .f32⟩
  | 124 => ⟨S8x2048x512, .f32⟩
  | 125 => ⟨S_, .f32⟩
  | 126 => ⟨S8x2048x512, .f32⟩
  | 127 => ⟨S8x2048x512, .f32⟩
  | _ => ⟨S8x2048, .i32⟩

abbrev hbmTy0_1 (i : Nat) : BufTy := match i % 128 with
  | 0 => ⟨S_, .f32⟩
  | 1 => ⟨S8x2048x512, .f32⟩
  | 2 => ⟨S8x2048x512, .f32⟩
  | 3 => ⟨S8x2048x512, .f32⟩
  | 4 => ⟨S1x1x512, .f32⟩
  | 5 => ⟨S8x2048x512, .f32⟩
  | 6 => ⟨S8x2048x512, .f32⟩
  | 7 => ⟨S8x2048x512, .f32⟩
  | 8 => ⟨S1x1x512, .f32⟩
  | 9 => ⟨S8x2048x512, .f32⟩
  | 10 => ⟨S8x2048x512, .f32⟩
  | 11 => ⟨S8x2048x512, .f32⟩
  | 12 => ⟨S8x2048x512, .f32⟩
  | 13 => ⟨S8x2048x512, .f32⟩
  | 14 => ⟨S8x2048x2x512, .f32⟩
  | 15 => ⟨S_, .f32⟩
  | 16 => ⟨S8x2048x512, .f32⟩
  | 17 => ⟨S8x2048x512, .f32⟩
  | 18 => ⟨S8x2048x512, .f32⟩
  | 19 => ⟨S8x2048x512, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_c_2 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_c_3 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_cst : Ref sig .tc := ⟨.hbm, 91, rfl⟩
abbrev main_v26 : Ref sig .tc := ⟨.hbm, 92, rfl⟩
abbrev main_v27 : Ref sig .tc := ⟨.hbm, 93, rfl⟩
abbrev main_cst_1 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_2 : Ref sig .tc := ⟨.hbm, 108, rfl⟩
abbrev main_v41 : Ref sig .tc := ⟨.hbm, 109, rfl⟩
abbrev main_v42 : Ref sig .tc := ⟨.hbm, 110, rfl⟩
abbrev main_cst_3 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_4 : Ref sig .tc := ⟨.hbm, 125, rfl⟩
abbrev main_v56 : Ref sig .tc := ⟨.hbm, 126, rfl⟩
abbrev main_v57 : Ref sig .tc := ⟨.hbm, 127, rfl⟩
abbrev main_cst_5 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_6 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩

abbrev nD : Nat := 1
abbrev τ : Topo := Topo.v7x

variable {F : FTy → Type} [FloatOps F]

class Facts₀ : Prop where
  shapeCasts_S8x2048x2_S8x4096 : S8x2048x2.ShapeCasts S8x4096
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  h_S_ : 0 < S_.numel
  bcast_S8x4096_S8x4096x512_0_1 : S8x4096.BroadcastsInDim S8x4096x512 (![0, 1] : Fin 2 → Fin S8x4096x512.rank)
  bcast_S_S8x4096x512 : S_.BroadcastsInDim S8x4096x512 (![] : Fin 0 → Fin S8x4096x512.rank)
  shapeCasts_S8x4096x512_S8x2048x2x512 : S8x4096x512.ShapeCasts S8x2048x2x512
  shapeCasts_S8x2048x2x512_S8x2048x1024 : S8x2048x2x512.ShapeCasts S8x2048x1024
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x512 : S_.BroadcastsInDim S8x2048x512 (![] : Fin 0 → Fin S8x2048x512.rank)
  bcast_S2x512_S1x1x2x512_2_3 : S2x512.BroadcastsInDim S1x1x2x512 (![2, 3] : Fin 2 → Fin S1x1x2x512.rank)
  bcast_S1x1x2x512_S8x2048x2x512_0_1_2_3 : S1x1x2x512.BroadcastsInDim S8x2048x2x512 (![0, 1, 2, 3] : Fin 4 → Fin S8x2048x2x512.rank)
  bcast_S_S8x2048x2x512 : S_.BroadcastsInDim S8x2048x2x512 (![] : Fin 0 → Fin S8x2048x2x512.rank)
  reducesTo_S8x2048x2x512_S8x2048x512_d2 : S8x2048x2x512.ReducesTo [2] S8x2048x512
  gather_S64x512_S8x2048x1_S8x2048x512_2_0_n_n_0_2_1512_wf : GatherDims.WF S64x512 S8x2048x1 S8x2048x512 [2] [0] [] [0] [] 2 ![1, 512]
  gather_S8x4096x512_S8x4096x1_S8x4096x512_2_1_0_0_1_2_11512_wf : GatherDims.WF S8x4096x512 S8x4096x1 S8x4096x512 [2] [1] [0] [1] [0] 2 ![1, 1, 512]
  dot_S8x2048x512_S512x512_S8x2048x512_2_1_01_0_n_n_wf : DotDims.WF S8x2048x512 S512x512 S8x2048x512 [2] [1] [0, 1] [0] [] []
  dot_S8x2048x1024_S512x1024_S8x2048x512_2_1_01_0_n_n_wf : DotDims.WF S8x2048x1024 S512x1024 S8x2048x512 [2] [1] [0, 1] [0] [] []
  dot_S8x2048x512_S2x512x512_S8x2048x2x512_2_2_01_01_n_n_wf : DotDims.WF S8x2048x512 S2x512x512 S8x2048x2x512 [2] [2] [0, 1] [0, 1] [] []
  dot_S8x2048x1024_S2x512x1024_S8x2048x2x512_2_2_01_01_n_n_wf : DotDims.WF S8x2048x1024 S2x512x1024 S8x2048x2x512 [2] [2] [0, 1] [0, 1] [] []

variable [Facts₀]

def gather_S64x512_S8x2048x1_S8x2048x512_2_0_n_n_0_2_1512 : GatherDims S64x512 S8x2048x1 S8x2048x512 where
  offsetDims := [2]
  collapsedSliceDims := [0]
  operandBatchingDims := []
  startIndicesBatchingDims := []
  startIndexMap := [0]
  indexVectorDim := 2
  sliceSizes := ![1, 512]
  wf := gather_S64x512_S8x2048x1_S8x2048x512_2_0_n_n_0_2_1512_wf
def gather_S8x4096x512_S8x4096x1_S8x4096x512_2_1_0_0_1_2_11512 : GatherDims S8x4096x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x4096x512_S8x4096x1_S8x4096x512_2_1_0_0_1_2_11512_wf
def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf
def dot_S8x2048x512_S2x512x512_S8x2048x2x512_2_2_01_01_n_n : DotDims S8x2048x512 S2x512x512 S8x2048x2x512 where
  lhsContracting := [2]
  rhsContracting := [2]
  lhsNonContracting := [0, 1]
  rhsNonContracting := [0, 1]
  lhsBatch := []
  rhsBatch := []
  wf := dot_S8x2048x512_S2x512x512_S8x2048x2x512_2_2_01_01_n_n_wf
def dot_S8x2048x1024_S2x512x1024_S8x2048x2x512_2_2_01_01_n_n : DotDims S8x2048x1024 S2x512x1024 S8x2048x2x512 where
  lhsContracting := [2]
  rhsContracting := [2]
  lhsNonContracting := [0, 1]
  rhsNonContracting := [0, 1]
  lhsBatch := []
  rhsBatch := []
  wf := dot_S8x2048x1024_S2x512x1024_S8x2048x2x512_2_2_01_01_n_n_wf

class Facts : Prop extends Facts₀ where

variable [Facts]
-- ==== Proof.Gates.lean ====
/-
  The four matrix products of the fused cell, read at one output element.

  Each gate's block is a [512, 1536] activation tile (its leading unit axis dropped) times a
  [1536, N] stacked weight, accumulated from zero: at row r and column o that is the sum over the
  1536 contraction indices q of tile[r, q] · weight[q, o].  Three of the gates then add a bias row
  (broadcast over the 512 rows) and apply the logistic function; the candidate's product is used as
  it is (its bias is added later).
-/
import proofs.«127134_j38998303048339_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Gates

open Cert.KernelIdeal Cert.KernelIdeal.Gen Idealize.ShloMosaic Idealize.ShloMosaic.ValueIdx

/-! ## The product's operand indices

The left operand contracts its second axis and the right operand its first: at output index (r, o)
and contraction index q the left operand is read at (r, q) and the right one at (q, o). -/

theorem lhs_n512_0 (i : S512x512.Idx) (q : dot_S512x1536_S1536x512_S512x512_1_0_0_1_n_n.contr.Idx) :
    (dot_S512x1536_S1536x512_S512x512_1_0_0_1_n_n.lhsIdx i q 0).val = (i 0).val := by
  unfold DotDims.lhsIdx
  rw [dif_neg (show ¬(0 : Fin S512x1536.rank) ∈ dot_S512x1536_S1536x512_S512x512_1_0_0_1_n_n.lhsBatch by decide), dif_pos (show (0 : Fin S512x1536.rank) ∈ dot_S512x1536_S1536x512_S512x512_1_0_0_1_n_n.lhsNonContracting by decide)]
  rfl
theorem lhs_n512_1 (i : S512x512.Idx) (q : dot_S512x1536_S1536x512_S512x512_1_0_0_1_n_n.contr.Idx) :
    (dot_S512x1536_S1536x512_S512x512_1_0_0_1_n_n.lhsIdx i q 1).val = (q ⟨0, by decide⟩).val :=
  dot_S512x1536_S1536x512_S512x512_1_0_0_1_n_n.lhsIdx_val_of_single rfl i q
theorem rhs_n512_0 (i : S512x512.Idx) (q : dot_S512x1536_S1536x512_S512x512_1_0_0_1_n_n.contr.Idx) :
    (dot_S512x1536_S1536x512_S512x512_1_0_0_1_n_n.rhsIdx i q 0).val = (q ⟨0, by decide⟩).val :=
  dot_S512x1536_S1536x512_S512x512_1_0_0_1_n_n.rhsIdx_val_of_single rfl i q
theorem rhs_n512_1 (i : S512x512.Idx) (q : dot_S512x1536_S1536x512_S512x512_1_0_0_1_n_n.contr.Idx) :
    (dot_S512x1536_S1536x512_S512x512_1_0_0_1_n_n.rhsIdx i q 1).val = (i 1).val := by
  unfold DotDims.rhsIdx
  rw [dif_neg (show ¬(1 : Fin S1536x512.rank) ∈ dot_S512x1536_S1536x512_S512x512_1_0_0_1_n_n.rhsBatch by decide), dif_pos (show (1 : Fin S1536x512.rank) ∈ dot_S512x1536_S1536x512_S512x512_1_0_0_1_n_n.rhsNonContracting by decide)]
  rfl

/-- The product accumulated from zero, at row r and column o: the sum over the 1536 contraction indices. -/
theorem matmul_n512_apply (x : FVec Ideal S512x1536 .bf16) (w : FVec Ideal S1536x512 .bf16) (r : Fin 512) (o : Fin 512) :
    FloatOps.matmul (F := Ideal) dot_S512x1536_S1536x512_S512x512_1_0_0_1_n_n none x w (constant S512x512 .f32 0x00000000#32) (ix2 r o)
      = ∑ q : Fin 1536, x (ix2 r q) * w (ix2 q o) := by
  rw [Ideal.matmul_constant_zero_apply, ← Equiv.sum_comp (ValueIdx.contrEquiv1 dot_S512x1536_S1536x512_S512x512_1_0_0_1_n_n 1536 rfl rfl).symm]
  refine Finset.sum_congr rfl fun k _ => ?_
  have hk := ValueIdx.contrEquiv1_symm_val dot_S512x1536_S1536x512_S512x512_1_0_0_1_n_n 1536 rfl rfl k
  have el : dot_S512x1536_S1536x512_S512x512_1_0_0_1_n_n.lhsIdx (ix2 r o) ((ValueIdx.contrEquiv1 dot_S512x1536_S1536x512_S512x512_1_0_0_1_n_n 1536 rfl rfl).symm k) = ix2 r k := funext fun a => Fin.ext (by
    match a with
    | ⟨0, _⟩ => exact lhs_n512_0 _ _
    | ⟨1, _⟩ => exact (lhs_n512_1 _ _).trans hk)
  have er : dot_S512x1536_S1536x512_S512x512_1_0_0_1_n_n.rhsIdx (ix2 r o) ((ValueIdx.contrEquiv1 dot_S512x1536_S1536x512_S512x512_1_0_0_1_n_n 1536 rfl rfl).symm k) = ix2 k o := funext fun a => Fin.ext (by
    match a with
    | ⟨0, _⟩ => exact (rhs_n512_0 _ _).trans hk
    | ⟨1, _⟩ => exact rhs_n512_1 _ _)
  rw [el, er]

theorem lhs_n1024_0 (i : S512x1024.Idx) (q : dot_S512x1536_S1536x1024_S512x1024_1_0_0_1_n_n.contr.Idx) :
    (dot_S512x1536_S1536x1024_S512x1024_1_0_0_1_n_n.lhsIdx i q 0).val = (i 0).val := by
  unfold DotDims.lhsIdx
  rw [dif_neg (show ¬(0 : Fin S512x1536.rank) ∈ dot_S512x1536_S1536x1024_S512x1024_1_0_0_1_n_n.lhsBatch by decide), dif_pos (show (0 : Fin S512x1536.rank) ∈ dot_S512x1536_S1536x1024_S512x1024_1_0_0_1_n_n.lhsNonContracting by decide)]
  rfl
theorem lhs_n1024_1 (i : S512x1024.Idx) (q : dot_S512x1536_S1536x1024_S512x1024_1_0_0_1_n_n.contr.Idx) :
    (dot_S512x1536_S1536x1024_S512x1024_1_0_0_1_n_n.lhsIdx i q 1).val = (q ⟨0, by decide⟩).val :=
  dot_S512x1536_S1536x1024_S512x1024_1_0_0_1_n_n.lhsIdx_val_of_single rfl i q
theorem rhs_n1024_0 (i : S512x1024.Idx) (q : dot_S512x1536_S1536x1024_S512x1024_1_0_0_1_n_n.contr.Idx) :
    (dot_S512x1536_S1536x1024_S512x1024_1_0_0_1_n_n.rhsIdx i q 0).val = (q ⟨0, by decide⟩).val :=
  dot_S512x1536_S1536x1024_S512x1024_1_0_0_1_n_n.rhsIdx_val_of_single rfl i q
theorem rhs_n1024_1 (i : S512x1024.Idx) (q : dot_S512x1536_S1536x1024_S512x1024_1_0_0_1_n_n.contr.Idx) :
    (dot_S512x1536_S1536x1024_S512x1024_1_0_0_1_n_n.rhsIdx i q 1).val = (i 1).val := by
  unfold DotDims.rhsIdx
  rw [dif_neg (show ¬(1 : Fin S1536x1024.rank) ∈ dot_S512x1536_S1536x1024_S512x1024_1_0_0_1_n_n.rhsBatch by decide), dif_pos (show (1 : Fin S1536x1024.rank) ∈ dot_S512x1536_S1536x1024_S512x1024_1_0_0_1_n_n.rhsNonContracting by decide)]
  rfl

/-- The product accumulated from zero, at row r and column o: the sum over the 1536 contraction indices. -/
theorem matmul_n1024_apply (x : FVec Ideal S512x1536 .bf16) (w : FVec Ideal S1536x1024 .bf16) (r : Fin 512) (o : Fin 1024) :
    FloatOps.matmul (F := Ideal) dot_S512x1536_S1536x1024_S512x1024_1_0_0_1_n_n none x w (constant S512x1024 .f32 0x00000000#32) (ix2 r o)
      = ∑ q : Fin 1536, x (ix2 r q) * w (ix2 q o) := by
  rw [Ideal.matmul_constant_zero_apply, ← Equiv.sum_comp (ValueIdx.contrEquiv1 dot_S512x1536_S1536x1024_S512x1024_1_0_0_1_n_n 1536 rfl rfl).symm]
  refine Finset.sum_congr rfl fun k _ => ?_
  have hk := ValueIdx.contrEquiv1_symm_val dot_S512x1536_S1536x1024_S512x1024_1_0_0_1_n_n 1536 rfl rfl k
  have el : dot_S512x1536_S1536x1024_S512x1024_1_0_0_1_n_n.lhsIdx (ix2 r o) ((ValueIdx.contrEquiv1 dot_S512x1536_S1536x1024_S512x1024_1_0_0_1_n_n 1536 rfl rfl).symm k) = ix2 r k := funext fun a => Fin.ext (by
    match a with
    | ⟨0, _⟩ => exact lhs_n1024_0 _ _
    | ⟨1, _⟩ => exact (lhs_n1024_1 _ _).trans hk)
  have er : dot_S512x1536_S1536x1024_S512x1024_1_0_0_1_n_n.rhsIdx (ix2 r o) ((ValueIdx.contrEquiv1 dot_S512x1536_S1536x1024_S512x1024_1_0_0_1_n_n 1536 rfl rfl).symm k) = ix2 k o := funext fun a => Fin.ext (by
    match a with
    | ⟨0, _⟩ => exact (rhs_n1024_0 _ _).trans hk
    | ⟨1, _⟩ => exact rhs_n1024_1 _ _)
  rw [el, er]

/-! ## The activation tile -/

/-- The activation tile with its leading unit axis dropped, at (r, q). -/
theorem pay4_apply (P0 : Vec Ideal S1x512x1536 .bf16) (r : Fin 512) (q : Fin 1536) :
    k0_pay4 (F := Ideal) P0 (ix2 r q) = P0 (ix3 (0 : Fin 1) r q) := by
  unfold k0_pay4
  exact shapeCast_1ab_ab_apply P0 shapeCasts_S1x512x1536_S512x1536 r q

/-! ## The four gates

A weight's and a bias's cast to its own shape is the identity; the bias row is read at row 0 of
its [1, N] array whatever the output row. -/

/-- The input gate's block at (r, o). -/
theorem pay6_apply (P0 : Vec Ideal S1x512x1536 .bf16) (P1 : Vec Ideal S1536x512 .bf16) (P2 : Vec Ideal S1x512 .f32)
    (r o : Fin 512) :
    k0_pay6 (F := Ideal) P0 P1 P2 (ix2 r o)
      = Ideal.logistic ((∑ q : Fin 1536, P0 (ix3 (0 : Fin 1) r q) * P1 (ix2 q o)) + P2 (ix2 (0 : Fin 1) o)) := by
  unfold k0_pay6
  simp only [matmul]
  rw [shapeCast_self, shapeCast_self]
  show Ideal.logistic (FloatOps.matmul (F := Ideal) dot_S512x1536_S1536x512_S512x512_1_0_0_1_n_n none (k0_pay4 P0) P1 (constant S512x512 .f32 0x00000000#32) (ix2 r o)
      + broadcastTo S512x512 P2 broadcasts_S1x512_S512x512 (ix2 r o)) = _
  rw [matmul_n512_apply, broadcastTo_1b_ab_apply]
  simp only [pay4_apply]

/-- The forget gates' block (both children side by side, 1024 columns) at (r, j). -/
theorem pay7_apply (P0 : Vec Ideal S1x512x1536 .bf16) (P5 : Vec Ideal S1536x1024 .bf16) (P6 : Vec Ideal S1x1024 .f32)
    (r : Fin 512) (j : Fin 1024) :
    k0_pay7 (F := Ideal) P0 P5 P6 (ix2 r j)
      = Ideal.logistic ((∑ q : Fin 1536, P0 (ix3 (0 : Fin 1) r q) * P5 (ix2 q j)) + P6 (ix2 (0 : Fin 1) j)) := by
  unfold k0_pay7
  simp only [matmul]
  rw [shapeCast_self, shapeCast_self]
  show Ideal.logistic (FloatOps.matmul (F := Ideal) dot_S512x1536_S1536x1024_S512x1024_1_0_0_1_n_n none (k0_pay4 P0) P5 (constant S512x1024 .f32 0x00000000#32) (ix2 r j)
      + broadcastTo S512x1024 P6 broadcasts_S1x1024_S512x1024 (ix2 r j)) = _
  rw [matmul_n1024_apply, broadcastTo_1b_ab_apply]
  simp only [pay4_apply]

/-- The output gate's block at (r, o). -/
theorem pay8_apply (P0 : Vec Ideal S1x512x1536 .bf16) (P8 : Vec Ideal S1536x512 .bf16) (P9 : Vec Ideal S1x512 .f32)
    (r o : Fin 512) :
    k0_pay8 (F := Ideal) P0 P8 P9 (ix2 r o)
      = Ideal.logistic ((∑ q : Fin 1536, P0 (ix3 (0 : Fin 1) r q) * P8 (ix2 q o)) + P9 (ix2 (0 : Fin 1) o)) := by
  unfold k0_pay8
  simp only [matmul]
  rw [shapeCast_self, shapeCast_self]
  show Ideal.logistic (FloatOps.matmul (F := Ideal) dot_S512x1536_S1536x512_S512x512_1_0_0_1_n_n none (k0_pay4 P0) P8 (constant S512x512 .f32 0x00000000#32) (ix2 r o)
      + broadcastTo S512x512 P9 broadcasts_S1x512_S512x512 (ix2 r o)) = _
  rw [matmul_n512_apply, broadcastTo_1b_ab_apply]
  simp only [pay4_apply]

/-- The candidate's product at (r, o), before its bias. -/
theorem pay9_apply (P0 : Vec Ideal S1x512x1536 .bf16) (P3 : Vec Ideal S1536x512 .bf16) (r o : Fin 512) :
    k0_pay9 (F := Ideal) P0 P3 (ix2 r o) = ∑ q : Fin 1536, P0 (ix3 (0 : Fin 1) r q) * P3 (ix2 q o) := by
  unfold k0_pay9
  simp only [matmul]
  rw [shapeCast_self]
  show FloatOps.matmul (F := Ideal) dot_S512x1536_S1536x512_S512x512_1_0_0_1_n_n none (k0_pay4 P0) P3 (constant S512x512 .f32 0x00000000#32) (ix2 r o) = _
  rw [matmul_n512_apply]
  simp only [pay4_apply]

end Cert.KernelIdeal.Gates

end
-- ==== Proof.Spec.lean ====
/-
  The tree cell as one function of its inputs, index by index, on the extended reals.

  For a batch entry b, a position s and an output feature o, with rel the embedded relation row
  (512 features), lh the two children's hidden rows side by side (1024 features) and sc the two
  children's context rows:

    pre W U      = (Σ_i rel[i]·W[o,i] + Wb[o]) + (Σ_j lh[j]·U[o,j] + Ub[o])         (gates i, o, c)
    preF k       = ((Σ_i rel[i]·Wf[k,o,i] + Wfb[k,o]) + Σ_j lh[j]·Uf[k,o,j]) + Ufb[k,o]   (forget, child k)
    c            = σ(pre_i)·tanh(pre_c) + Σ_k σ(preF k)·sc[k,o]
    h            = tanh(c)·σ(pre_o)

  The fused form contracts ONE row of 1536 features, rel followed by lh, against the stacked weight
  rows, and adds the two biases summed first.  The two forms agree on the extended reals because a
  sum over 512 + 1024 indices splits into its two parts and addition there is commutative and
  associative (no cancellation, no distributivity: nothing needs the inputs finite).
-/
import Idealize.ShloMosaic.PureOps.Ideal
import Idealize.ShloMosaic.PureOps.Ideal.Laws
import Idealize.ShloMosaic.Lib.ValueIdx

noncomputable section

namespace Cert.TreeCell

open Idealize.ShloMosaic Idealize.ShloMosaic.ValueIdx

abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal
abbrev Arr4 (a b c d : ℕ) := (⟨4, ![a, b, c, d]⟩ : Shape).Idx → EReal

/-- The sixteen weight arrays, in the order the programs take them. -/
structure Params where
  Wi_w : Arr2 512 512
  Wi_b : Arr1 512
  Ui_w : Arr2 512 1024
  Ui_b : Arr1 512
  Wf_w : Arr3 2 512 512
  Wf_b : Arr2 2 512
  Uf_w : Arr3 2 512 1024
  Uf_b : Arr2 2 512
  Wo_w : Arr2 512 512
  Wo_b : Arr1 512
  Uo_w : Arr2 512 1024
  Uo_b : Arr1 512
  Wc_w : Arr2 512 512
  Wc_b : Arr1 512
  Uc_w : Arr2 512 1024
  Uc_b : Arr1 512

variable (rel : Arr3 8 2048 512) (lh : Arr3 8 2048 1024) (sc : Arr4 8 2048 2 512)

/-! ## The two-layer form -/

/-- A gate's pre-activation: the relation's linear layer plus the children's linear layer. -/
def pre (Ww : Arr2 512 512) (Wb : Arr1 512) (Uw : Arr2 512 1024) (Ub : Arr1 512)
    (b : Fin 8) (s : Fin 2048) (o : Fin 512) : EReal :=
  ((∑ i : Fin 512, rel (ix3 b s i) * Ww (ix2 o i)) + Wb (ix1 o))
    + ((∑ j : Fin 1024, lh (ix3 b s j) * Uw (ix2 o j)) + Ub (ix1 o))

/-- The forget gate's pre-activation for child `k`. -/
def preF (Wf : Arr3 2 512 512) (Wfb : Arr2 2 512) (Uf : Arr3 2 512 1024) (Ufb : Arr2 2 512)
    (b : Fin 8) (s : Fin 2048) (k : Fin 2) (o : Fin 512) : EReal :=
  (((∑ i : Fin 512, rel (ix3 b s i) * Wf (ix3 k o i)) + Wfb (ix2 k o))
    + (∑ j : Fin 1024, lh (ix3 b s j) * Uf (ix3 k o j))) + Ufb (ix2 k o)

/-- The new context. -/
def cellC (P : Params) (b : Fin 8) (s : Fin 2048) (o : Fin 512) : EReal :=
  Ideal.logistic (pre rel lh P.Wi_w P.Wi_b P.Ui_w P.Ui_b b s o) * Ideal.tanh (pre rel lh P.Wc_w P.Wc_b P.Uc_w P.Uc_b b s o)
    + ∑ k : Fin 2, Ideal.logistic (preF rel lh P.Wf_w P.Wf_b P.Uf_w P.Uf_b b s k o) * sc (ix4 b s k o)

/-- The new hidden state. -/
def cellH (P : Params) (b : Fin 8) (s : Fin 2048) (o : Fin 512) : EReal :=
  Ideal.tanh (cellC rel lh sc P b s o) * Ideal.logistic (pre rel lh P.Wo_w P.Wo_b P.Uo_w P.Uo_b b s o)

/-- The two results as arrays. -/
def arrC (P : Params) : Arr3 8 2048 512 := fun i => cellC rel lh sc P (i 0) (i 1) (i 2)
def arrH (P : Params) : Arr3 8 2048 512 := fun i => cellH rel lh sc P (i 0) (i 1) (i 2)

/-! ## The fused form -/

/-- The fused activation row: the relation's features, then the children's. -/
def catX (b : Fin 8) (s : Fin 2048) (q : Fin 1536) : EReal :=
  if h : q.val < 512 then rel (ix3 b s ⟨q.val, h⟩) else lh (ix3 b s ⟨q.val - 512, by have := q.isLt; omega⟩)

/-- A stacked weight: the relation layer's row, then the children layer's. -/
def catW (Ww : Arr2 512 512) (Uw : Arr2 512 1024) (q : Fin 1536) (o : Fin 512) : EReal :=
  if h : q.val < 512 then Ww (ix2 o ⟨q.val, h⟩) else Uw (ix2 o ⟨q.val - 512, by have := q.isLt; omega⟩)

/-- The forget gate's stacked weight for child `k`. -/
def catWf (Wf : Arr3 2 512 512) (Uf : Arr3 2 512 1024) (q : Fin 1536) (k : Fin 2) (o : Fin 512) : EReal :=
  if h : q.val < 512 then Wf (ix3 k o ⟨q.val, h⟩) else Uf (ix3 k o ⟨q.val - 512, by have := q.isLt; omega⟩)

/-- A sum over 1536 indices is the sum over the first 512 plus the sum over the other 1024. -/
theorem sum_split (f : Fin 1536 → EReal) :
    ∑ q : Fin 1536, f q = (∑ i : Fin 512, f ⟨i.val, by have := i.isLt; omega⟩)
      + ∑ j : Fin 1024, f ⟨512 + j.val, by have := j.isLt; omega⟩ := by
  exact Fin.sum_univ_add (a := 512) (b := 1024) (f := fun q : Fin (512 + 1024) => f ⟨q.val, q.isLt⟩)

/-- A gate's pre-activation in the fused form. -/
def preK (Ww : Arr2 512 512) (Wb : Arr1 512) (Uw : Arr2 512 1024) (Ub : Arr1 512)
    (b : Fin 8) (s : Fin 2048) (o : Fin 512) : EReal :=
  (∑ q : Fin 1536, catX rel lh b s q * catW Ww Uw q o) + (Wb (ix1 o) + Ub (ix1 o))

theorem preK_eq (Ww : Arr2 512 512) (Wb : Arr1 512) (Uw : Arr2 512 1024) (Ub : Arr1 512)
    (b : Fin 8) (s : Fin 2048) (o : Fin 512) :
    preK rel lh Ww Wb Uw Ub b s o = pre rel lh Ww Wb Uw Ub b s o := by
  unfold preK pre
  rw [sum_split]
  have e1 : (∑ i : Fin 512, catX rel lh b s ⟨i.val, by have := i.isLt; omega⟩ * catW Ww Uw ⟨i.val, by have := i.isLt; omega⟩ o)
      = ∑ i : Fin 512, rel (ix3 b s i) * Ww (ix2 o i) :=
    Finset.sum_congr rfl fun i _ => by
      unfold catX catW
      rw [dif_pos (show (⟨i.val, _⟩ : Fin 1536).val < 512 from i.isLt), dif_pos (show (⟨i.val, _⟩ : Fin 1536).val < 512 from i.isLt)]
  have e2 : (∑ j : Fin 1024, catX rel lh b s ⟨512 + j.val, by have := j.isLt; omega⟩ * catW Ww Uw ⟨512 + j.val, by have := j.isLt; omega⟩ o)
      = ∑ j : Fin 1024, lh (ix3 b s j) * Uw (ix2 o j) :=
    Finset.sum_congr rfl fun j _ => by
      unfold catX catW
      rw [dif_neg (show ¬ (⟨512 + j.val, _⟩ : Fin 1536).val < 512 from by show ¬ 512 + j.val < 512; omega),
        dif_neg (show ¬ (⟨512 + j.val, _⟩ : Fin 1536).val < 512 from by show ¬ 512 + j.val < 512; omega)]
      congr 3 <;> (apply Fin.ext; show 512 + j.val - 512 = j.val; omega)
  rw [e1, e2]
  exact add_add_add_comm _ _ _ _

/-- The forget gate's pre-activation in the fused form. -/
def preFK (Wf : Arr3 2 512 512) (Wfb : Arr2 2 512) (Uf : Arr3 2 512 1024) (Ufb : Arr2 2 512)
    (b : Fin 8) (s : Fin 2048) (k : Fin 2) (o : Fin 512) : EReal :=
  (∑ q : Fin 1536, catX rel lh b s q * catWf Wf Uf q k o) + (Wfb (ix2 k o) + Ufb (ix2 k o))

theorem preFK_eq (Wf : Arr3 2 512 512) (Wfb : Arr2 2 512) (Uf : Arr3 2 512 1024) (Ufb : Arr2 2 512)
    (b : Fin 8) (s : Fin 2048) (k : Fin 2) (o : Fin 512) :
    preFK rel lh Wf Wfb Uf Ufb b s k o = preF rel lh Wf Wfb Uf Ufb b s k o := by
  unfold preFK preF
  rw [sum_split]
  have e1 : (∑ i : Fin 512, catX rel lh b s ⟨i.val, by have := i.isLt; omega⟩ * catWf Wf Uf ⟨i.val, by have := i.isLt; omega⟩ k o)
      = ∑ i : Fin 512, rel (ix3 b s i) * Wf (ix3 k o i) :=
    Finset.sum_congr rfl fun i _ => by
      unfold catX catWf
      rw [dif_pos (show (⟨i.val, _⟩ : Fin 1536).val < 512 from i.isLt), dif_pos (show (⟨i.val, _⟩ : Fin 1536).val < 512 from i.isLt)]
  have e2 : (∑ j : Fin 1024, catX rel lh b s ⟨512 + j.val, by have := j.isLt; omega⟩ * catWf Wf Uf ⟨512 + j.val, by have := j.isLt; omega⟩ k o)
      = ∑ j : Fin 1024, lh (ix3 b s j) * Uf (ix3 k o j) :=
    Finset.sum_congr rfl fun j _ => by
      unfold catX catWf
      rw [dif_neg (show ¬ (⟨512 + j.val, _⟩ : Fin 1536).val < 512 from by show ¬ 512 + j.val < 512; omega),
        dif_neg (show ¬ (⟨512 + j.val, _⟩ : Fin 1536).val < 512 from by show ¬ 512 + j.val < 512; omega)]
      congr 3 <;> (apply Fin.ext; show 512 + j.val - 512 = j.val; omega)
  rw [e1, e2]
  -- (A + B) + (x + y) = (A + x) + (B + y) = ((A + x) + B) + y
  rw [add_add_add_comm]
  exact (add_assoc _ _ _).symm

/-- The new context in the fused form: the two children's terms added one after the other. -/
def cellCK (P : Params) (b : Fin 8) (s : Fin 2048) (o : Fin 512) : EReal :=
  (Ideal.logistic (preK rel lh P.Wi_w P.Wi_b P.Ui_w P.Ui_b b s o) * Ideal.tanh (preK rel lh P.Wc_w P.Wc_b P.Uc_w P.Uc_b b s o)
    + Ideal.logistic (preFK rel lh P.Wf_w P.Wf_b P.Uf_w P.Uf_b b s 0 o) * sc (ix4 b s 0 o))
    + Ideal.logistic (preFK rel lh P.Wf_w P.Wf_b P.Uf_w P.Uf_b b s 1 o) * sc (ix4 b s 1 o)

theorem cellCK_eq (P : Params) (b : Fin 8) (s : Fin 2048) (o : Fin 512) :
    cellCK rel lh sc P b s o = cellC rel lh sc P b s o := by
  unfold cellCK cellC
  rw [preK_eq, preK_eq, preFK_eq, preFK_eq, Fin.sum_univ_two, add_assoc]

/-- The new hidden state in the fused form. -/
def cellHK (P : Params) (b : Fin 8) (s : Fin 2048) (o : Fin 512) : EReal :=
  Ideal.tanh (cellCK rel lh sc P b s o) * Ideal.logistic (preK rel lh P.Wo_w P.Wo_b P.Uo_w P.Uo_b b s o)

theorem cellHK_eq (P : Params) (b : Fin 8) (s : Fin 2048) (o : Fin 512) :
    cellHK rel lh sc P b s o = cellH rel lh sc P b s o := by
  unfold cellHK cellH
  rw [cellCK_eq, preK_eq]

end Cert.TreeCell

end
-- ==== Proof.HostArrays.lean ====
/-
  What the fused cell's operand arrays hold, element by element.

  Before the fused cell runs, the program lays its operands out with reshapes, transposes,
  concatenations, sums of bias vectors and narrowing conversions (which change nothing on the
  extended reals):
    the activation row [b, s, ·] is the relation's 512 features followed by the children's 1024;
    a gate's stacked weight [q, o] is W[o, q] for q < 512 and U[o, q − 512] after that;
    the forget gate's stacked weight has column k·512 + o for child k, from Wf[k, o, ·] and Uf[k, o, ·];
    a gate's bias row [0, o] is Wb[o] + Ub[o] (column k·512 + o for the forget gate);
    the children's context row [b, s, k·512 + o] is the gathered context at [b, s, k, o].
-/
import proofs.«127134_j38998303048339_1_alg».proof.Proof.Gen.KernelIdeal.Frame
import proofs.«127134_j38998303048339_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Cert.TreeCell Idealize.ShloMosaic Idealize.ShloMosaic.TcCoe Idealize.ShloMosaic.ValueIdx
open Idealize.SL.Sem

/-! ## The layouts read at an index, over any arrays -/

/-- Two-piece concatenations agree when their pieces agree. -/
theorem concatenate_pair_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- The activation: along the last axis the first 512 columns are the first piece, the other 1024 the second. -/
theorem xcat_pt (X : Arr3 8 2048 512) (Y : Arr3 8 2048 1024)
    (hc : Shape.Concatenates [S8x2048x512, S8x2048x1024] S8x2048x1536 2) (hb : FTy.bits .bf16 < FTy.bits .f32)
    (b : Fin 8) (s : Fin 2048) (q : Fin 1536) :
    (truncf (F := Ideal) .bf16 (concatenate S8x2048x1536 2 [⟨S8x2048x512, X⟩, ⟨S8x2048x1024, Y⟩] hc : FVec Ideal S8x2048x1536 .f32) hb : S8x2048x1536.Idx → EReal) (ix3 b s q)
      = catX X Y b s q := by
  refine (truncf_apply _ hb _).trans ?_
  unfold catX
  by_cases h : q.val < 512
  · rw [dif_pos h]
    exact concatenate_pair_apply_left (t := S8x2048x1536) (s₁ := S8x2048x512) (s₂ := S8x2048x1024) (2 : Fin 3) X Y hc (ix3 b s q) rfl
      (ix3 b s (⟨q.val, h⟩ : Fin 512)) (by
        intro a
        match a with
        | ⟨0, _⟩ => rfl
        | ⟨1, _⟩ => rfl
        | ⟨2, _⟩ => rfl)
  · rw [dif_neg h]
    have hq : q.val - 512 < 1024 := by have := q.isLt; omega
    exact concatenate_pair_apply_right (t := S8x2048x1536) (s₁ := S8x2048x512) (s₂ := S8x2048x1024) (2 : Fin 3) X Y hc (ix3 b s q) rfl rfl
      (ix3 b s (⟨q.val - 512, hq⟩ : Fin 1024)) (by
        intro a ha
        match a with
        | ⟨0, _⟩ => rfl
        | ⟨1, _⟩ => rfl
        | ⟨2, _⟩ => exact absurd rfl ha) (by
        show (q.val - 512) + 512 = q.val; omega)

/-- The two children's rows side by side: column k·512 + o of the flattened row is entry (k, o). -/
theorem srcc_pt (Z : Arr4 8 2048 2 512) (h : S8x2048x2x512.ShapeCasts S8x2048x1024)
    (b : Fin 8) (s : Fin 2048) (k : Fin 2) (o : Fin 512) (j : Fin 1024) (hj : j.val = k.val * 512 + o.val) :
    shapeCast S8x2048x1024 Z h (ix3 b s j) = Z (ix4 b s k o) :=
  shapeCast_apply Z h (ix3 b s j) (ix4 b s k o) (by
    rw [Shape.rowMajor_val_four, Shape.rowMajor_val_three]
    show ((b.val * 2048 + s.val) * 2 + k.val) * 512 + o.val = (b.val * 2048 + s.val) * 1024 + j.val
    rw [hj]; omega)

/-- A stacked weight: the transposed relation weight's 512 rows, then the transposed children weight's 1024. -/
theorem stack_pt (A : Arr2 512 512) (B : Arr2 512 1024)
    (hA : S512x512.Transposes [1, 0] S512x512) (hB : S512x1024.Transposes [1, 0] S1024x512)
    (hc : Shape.Concatenates [S512x512, S1024x512] S1536x512 0) (hb : FTy.bits .bf16 < FTy.bits .f32)
    (q : Fin 1536) (o : Fin 512) :
    (truncf (F := Ideal) .bf16 (concatenate S1536x512 0 [⟨S512x512, transpose S512x512 [1, 0] A hA⟩, ⟨S1024x512, transpose S1024x512 [1, 0] B hB⟩] hc : FVec Ideal S1536x512 .f32) hb : S1536x512.Idx → EReal) (ix2 q o)
      = catW A B q o := by
  refine (truncf_apply _ hb _).trans ?_
  unfold catW
  by_cases h : q.val < 512
  · rw [dif_pos h]
    refine (concatenate_pair_apply_left (t := S1536x512) (s₁ := S512x512) (s₂ := S1024x512) (0 : Fin 2) _ _ hc (ix2 q o) rfl
      (ix2 (⟨q.val, h⟩ : Fin 512) o) (by
        intro a
        match a with
        | ⟨0, _⟩ => rfl
        | ⟨1, _⟩ => rfl)).trans ?_
    exact transpose_ix2_apply A hA ⟨q.val, h⟩ o
  · rw [dif_neg h]
    have hq : q.val - 512 < 1024 := by have := q.isLt; omega
    refine (concatenate_pair_apply_right (t := S1536x512) (s₁ := S512x512) (s₂ := S1024x512) (0 : Fin 2) _ _ hc (ix2 q o) rfl rfl
      (ix2 (⟨q.val - 512, hq⟩ : Fin 1024) o) (by
        intro a ha
        match a with
        | ⟨0, _⟩ => exact absurd rfl ha
        | ⟨1, _⟩ => rfl) (by
        show (q.val - 512) + 512 = q.val; omega)).trans ?_
    exact transpose_ix2_apply B hB ⟨q.val - 512, hq⟩ o

/-- A bias row: the sum of the two bias vectors, as one row. -/
theorem bias_pt (u v : Arr1 512) (h : S512.ShapeCasts S1x512) (o : Fin 512) :
    shapeCast S1x512 (addf (F := Ideal) (s := S512) (φ := .f32) u v) h (ix2 (0 : Fin 1) o) = u (ix1 o) + v (ix1 o) :=
  (shapeCast_a_1a_apply _ h 0 o).trans (addf_apply (s := S512) (φ := .f32) u v (ix1 o))

/-- The forget gates' stacked weight: the two children's weights flattened to 1024 output columns first. -/
theorem stackF_pt (A : Arr3 2 512 512) (B : Arr3 2 512 1024)
    (hcA : S2x512x512.ShapeCasts S1024x512) (hcB : S2x512x1024.ShapeCasts S1024x1024)
    (hA : S1024x512.Transposes [1, 0] S512x1024) (hB : S1024x1024.Transposes [1, 0] S1024x1024)
    (hc : Shape.Concatenates [S512x1024, S1024x1024] S1536x1024 0) (hb : FTy.bits .bf16 < FTy.bits .f32)
    (q : Fin 1536) (k : Fin 2) (o : Fin 512) (j : Fin 1024) (hj : j.val = k.val * 512 + o.val) :
    (truncf (F := Ideal) .bf16 (concatenate S1536x1024 0 [⟨S512x1024, transpose S512x1024 [1, 0] (shapeCast S1024x512 A hcA) hA⟩,
        ⟨S1024x1024, transpose S1024x1024 [1, 0] (shapeCast S1024x1024 B hcB) hB⟩] hc : FVec Ideal S1536x1024 .f32) hb : S1536x1024.Idx → EReal) (ix2 q j)
      = catWf A B q k o := by
  refine (truncf_apply _ hb _).trans ?_
  unfold catWf
  by_cases h : q.val < 512
  · rw [dif_pos h]
    refine (concatenate_pair_apply_left (t := S1536x1024) (s₁ := S512x1024) (s₂ := S1024x1024) (0 : Fin 2) _ _ hc (ix2 q j) rfl
      (ix2 (⟨q.val, h⟩ : Fin 512) j) (by
        intro a
        match a with
        | ⟨0, _⟩ => rfl
        | ⟨1, _⟩ => rfl)).trans ?_
    refine (transpose_ix2_apply (shapeCast S1024x512 A hcA) hA ⟨q.val, h⟩ j).trans ?_
    exact shapeCast_apply A hcA (ix2 j (⟨q.val, h⟩ : Fin 512)) (ix3 k o (⟨q.val, h⟩ : Fin 512)) (by
      rw [Shape.rowMajor_val_three, Shape.rowMajor_val_two]
      show (k.val * 512 + o.val) * 512 + q.val = j.val * 512 + q.val
      rw [hj])
  · rw [dif_neg h]
    have hq : q.val - 512 < 1024 := by have := q.isLt; omega
    refine (concatenate_pair_apply_right (t := S1536x1024) (s₁ := S512x1024) (s₂ := S1024x1024) (0 : Fin 2) _ _ hc (ix2 q j) rfl rfl
      (ix2 (⟨q.val - 512, hq⟩ : Fin 1024) j) (by
        intro a ha
        match a with
        | ⟨0, _⟩ => exact absurd rfl ha
        | ⟨1, _⟩ => rfl) (by
        show (q.val - 512) + 512 = q.val; omega)).trans ?_
    refine (transpose_ix2_apply (shapeCast S1024x1024 B hcB) hB ⟨q.val - 512, hq⟩ j).trans ?_
    exact shapeCast_apply B hcB (ix2 j (⟨q.val - 512, hq⟩ : Fin 1024)) (ix3 k o (⟨q.val - 512, hq⟩ : Fin 1024)) (by
      rw [Shape.rowMajor_val_three, Shape.rowMajor_val_two]
      show (k.val * 512 + o.val) * 1024 + (q.val - 512) = j.val * 1024 + (q.val - 512)
      rw [hj])

/-- The forget gates' bias row: the two children's bias vectors flattened, summed, as one row. -/
theorem biasF_pt (u v : Arr2 2 512) (h1 : S2x512.ShapeCasts S1024) (h2 : S1024.ShapeCasts S1x1024)
    (k : Fin 2) (o : Fin 512) (j : Fin 1024) (hj : j.val = k.val * 512 + o.val) :
    shapeCast S1x1024 (addf (F := Ideal) (s := S1024) (φ := .f32) (shapeCast S1024 u h1) (shapeCast S1024 v h1)) h2 (ix2 (0 : Fin 1) j)
      = u (ix2 k o) + v (ix2 k o) := by
  have e : ∀ x : Arr2 2 512, shapeCast S1024 x h1 (ix1 j) = x (ix2 k o) := fun x =>
    shapeCast_apply x h1 (ix1 j) (ix2 k o) (by
      rw [Shape.rowMajor_val_two, Shape.rowMajor_val_one]
      show k.val * 512 + o.val = j.val
      exact hj.symm)
  refine (shapeCast_a_1a_apply _ h2 0 j).trans ?_
  refine (addf_apply (s := S1024) (φ := .f32) (shapeCast S1024 u h1) (shapeCast S1024 v h1) (ix1 j)).trans ?_
  exact congrArg₂ (· + ·) (e u) (e v)

/-! ## The program's arrays -/

variable (m : (ℓ : Loc nD τ sig) → Buf (Elt Ideal) ℓ) (c : Dev nD)

/-- The embedded relation rows, as the fused cell's program computes them. -/
def relK : Arr3 8 2048 512 := V m c main_v7
/-- The children's hidden rows side by side. -/
def lhK : Arr3 8 2048 1024 := V m c main_v14
/-- The children's context rows. -/
def scK : Arr4 8 2048 2 512 := V m c main_v13
/-- The sixteen weight arguments. -/
def prm : Params :=
  ⟨m ((c : Thread nD τ).loc main_arg5), m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11), m ((c : Thread nD τ).loc main_arg12),
   m ((c : Thread nD τ).loc main_arg13), m ((c : Thread nD τ).loc main_arg14), m ((c : Thread nD τ).loc main_arg15), m ((c : Thread nD τ).loc main_arg16),
   m ((c : Thread nD τ).loc main_arg17), m ((c : Thread nD τ).loc main_arg18), m ((c : Thread nD τ).loc main_arg19), m ((c : Thread nD τ).loc main_arg20)⟩

/-! ### The last stretch of operations, from whatever the earlier ones left

Every operand array is written by the last stretch (reshapes, transposes, concatenations, sums, narrowings), out
of arrays the earlier stretches wrote or the arguments.  The earlier stretches' result is kept as one unknown, so
each array's term is read off the last stretch alone and stated over the arrays it starts from. -/

theorem flatten_five {α : Type} (l₁ l₂ l₃ l₄ l₅ : List α) :
    List.flatten [l₁, l₂, l₃, l₄, l₅] = List.flatten [l₁, l₂, l₃, l₄] ++ l₅ := by
  simp only [List.flatten_cons, List.flatten_nil, List.append_nil, List.append_assoc]

/-- An array when the fused cell starts: the last stretch run from what the first four left. -/
theorem V_split (r : Ref sig .tc) :
    V m c r = StableHlo.after hostOps0_4
      (StableHlo.after (List.flatten [hostOps0, hostOps0_1, hostOps0_2, hostOps0_3]) (fun b => m (c, b))) (Proc.devRef .tc r) := by
  dsimp only [Gen.V]
  rw [flatten_five, StableHlo.after_append]

attribute [local congr] concatenate_pair_congr

/-- The activation array is the narrowed concatenation of the relation rows and the children's rows. -/
theorem v17_eq : (V m c main_v17 : S8x2048x1536.Idx → EReal)
    = (truncf (F := Ideal) .bf16 (concatenate S8x2048x1536 2 [⟨S8x2048x512, (V m c main_v7 : S8x2048x512.Idx → EReal)⟩,
        ⟨S8x2048x1024, (V m c main_v14 : S8x2048x1024.Idx → EReal)⟩] concatenates_S8x2048x512_S8x2048x1024_S8x2048x1536_d2 : FVec Ideal S8x2048x1536 .f32)
        bitsLt_bf16_f32 : S8x2048x1536.Idx → EReal) := by
  rw [V_split m c main_v17, V_split m c main_v7, V_split m c main_v14]
  generalize StableHlo.after (List.flatten [hostOps0, hostOps0_1, hostOps0_2, hostOps0_3]) (fun b => m (c, b)) = W
  dsimp only [Gen.hostOps0_4]
  after_results_simp <;> rfl

/-- The flattened context array is the context array reshaped. -/
theorem v15_eq : (V m c main_v15 : S8x2048x1024.Idx → EReal)
    = shapeCast S8x2048x1024 (V m c main_v13 : S8x2048x2x512.Idx → EReal) shapeCasts_S8x2048x2x512_S8x2048x1024 := by
  rw [V_split m c main_v15, V_split m c main_v13]
  generalize StableHlo.after (List.flatten [hostOps0, hostOps0_1, hostOps0_2, hostOps0_3]) (fun b => m (c, b)) = W
  dsimp only [Gen.hostOps0_4]
  after_results_simp <;> rfl

/-- A gate's stacked weight, over the two weight arrays it is made of. -/
def stackOf (A : S512x512.Idx → EReal) (B : S512x1024.Idx → EReal) : S1536x512.Idx → EReal :=
  (truncf (F := Ideal) .bf16 (concatenate S1536x512 0 [⟨S512x512, transpose S512x512 [1, 0] A transposes_S512x512_S512x512_1_0⟩,
    ⟨S1024x512, transpose S1024x512 [1, 0] B transposes_S512x1024_S1024x512_1_0⟩] concatenates_S512x512_S1024x512_S1536x512_d0 : FVec Ideal S1536x512 .f32)
    bitsLt_bf16_f32 : S1536x512.Idx → EReal)

theorem v21_eq : (V m c main_v21 : S1536x512.Idx → EReal) = stackOf (V m c main_arg5) (V m c main_arg7) := by
  unfold stackOf
  rw [V_split m c main_v21, V_split m c main_arg5, V_split m c main_arg7]
  generalize StableHlo.after (List.flatten [hostOps0, hostOps0_1, hostOps0_2, hostOps0_3]) (fun b => m (c, b)) = W
  dsimp only [Gen.hostOps0_4]
  after_results_simp <;> rfl

theorem v37_eq : (V m c main_v37 : S1536x512.Idx → EReal) = stackOf (V m c main_arg13) (V m c main_arg15) := by
  unfold stackOf
  rw [V_split m c main_v37, V_split m c main_arg13, V_split m c main_arg15]
  generalize StableHlo.after (List.flatten [hostOps0, hostOps0_1, hostOps0_2, hostOps0_3]) (fun b => m (c, b)) = W
  dsimp only [Gen.hostOps0_4]
  after_results_simp <;> rfl

theorem v43_eq : (V m c main_v43 : S1536x512.Idx → EReal) = stackOf (V m c main_arg17) (V m c main_arg19) := by
  unfold stackOf
  rw [V_split m c main_v43, V_split m c main_arg17, V_split m c main_arg19]
  generalize StableHlo.after (List.flatten [hostOps0, hostOps0_1, hostOps0_2, hostOps0_3]) (fun b => m (c, b)) = W
  dsimp only [Gen.hostOps0_4]
  after_results_simp <;> rfl

/-- A gate's bias row, over the two bias vectors it is made of. -/
def biasOf (u v : S512.Idx → EReal) : S1x512.Idx → EReal :=
  shapeCast S1x512 (addf (F := Ideal) (s := S512) (φ := .f32) u v) shapeCasts_S512_S1x512

theorem v23_eq : (V m c main_v23 : S1x512.Idx → EReal) = biasOf (V m c main_arg6) (V m c main_arg8) := by
  unfold biasOf
  rw [V_split m c main_v23, V_split m c main_arg6, V_split m c main_arg8]
  generalize StableHlo.after (List.flatten [hostOps0, hostOps0_1, hostOps0_2, hostOps0_3]) (fun b => m (c, b)) = W
  dsimp only [Gen.hostOps0_4]
  after_results_simp <;> rfl

theorem v39_eq : (V m c main_v39 : S1x512.Idx → EReal) = biasOf (V m c main_arg14) (V m c main_arg16) := by
  unfold biasOf
  rw [V_split m c main_v39, V_split m c main_arg14, V_split m c main_arg16]
  generalize StableHlo.after (List.flatten [hostOps0, hostOps0_1, hostOps0_2, hostOps0_3]) (fun b => m (c, b)) = W
  dsimp only [Gen.hostOps0_4]
  after_results_simp <;> rfl

theorem v45_eq : (V m c main_v45 : S1x512.Idx → EReal) = biasOf (V m c main_arg18) (V m c main_arg20) := by
  unfold biasOf
  rw [V_split m c main_v45, V_split m c main_arg18, V_split m c main_arg20]
  generalize StableHlo.after (List.flatten [hostOps0, hostOps0_1, hostOps0_2, hostOps0_3]) (fun b => m (c, b)) = W
  dsimp only [Gen.hostOps0_4]
  after_results_simp <;> rfl

/-- The forget gates' stacked weight is made of the two children's weights flattened, transposed and stacked. -/
theorem v29_eq : (V m c main_v29 : S1536x1024.Idx → EReal)
    = (truncf (F := Ideal) .bf16 (concatenate S1536x1024 0
        [⟨S512x1024, transpose S512x1024 [1, 0] (shapeCast S1024x512 (V m c main_arg9 : S2x512x512.Idx → EReal) shapeCasts_S2x512x512_S1024x512) transposes_S1024x512_S512x1024_1_0⟩,
         ⟨S1024x1024, transpose S1024x1024 [1, 0] (shapeCast S1024x1024 (V m c main_arg11 : S2x512x1024.Idx → EReal) shapeCasts_S2x512x1024_S1024x1024) transposes_S1024x1024_S1024x1024_1_0⟩]
        concatenates_S512x1024_S1024x1024_S1536x1024_d0 : FVec Ideal S1536x1024 .f32) bitsLt_bf16_f32 : S1536x1024.Idx → EReal) := by
  rw [V_split m c main_v29, V_split m c main_arg9, V_split m c main_arg11]
  generalize StableHlo.after (List.flatten [hostOps0, hostOps0_1, hostOps0_2, hostOps0_3]) (fun b => m (c, b)) = W
  dsimp only [Gen.hostOps0_4]
  after_results_simp <;> rfl

/-- The forget gates' bias row is made of the two children's bias vectors flattened and summed. -/
theorem v33_eq : (V m c main_v33 : S1x1024.Idx → EReal)
    = shapeCast S1x1024 (addf (F := Ideal) (s := S1024) (φ := .f32) (shapeCast S1024 (V m c main_arg10 : S2x512.Idx → EReal) shapeCasts_S2x512_S1024)
        (shapeCast S1024 (V m c main_arg12 : S2x512.Idx → EReal) shapeCasts_S2x512_S1024)) shapeCasts_S1024_S1x1024 := by
  rw [V_split m c main_v33, V_split m c main_arg10, V_split m c main_arg12]
  generalize StableHlo.after (List.flatten [hostOps0, hostOps0_1, hostOps0_2, hostOps0_3]) (fun b => m (c, b)) = W
  dsimp only [Gen.hostOps0_4]
  after_results_simp <;> rfl

/-! ### The arrays at an index -/

/-- The activation array: relation features, then the children's. -/
theorem xcat_apply (b : Fin 8) (s : Fin 2048) (q : Fin 1536) :
    (V m c main_v17 : S8x2048x1536.Idx → EReal) (ix3 b s q) = catX (relK m c) (lhK m c) b s q :=
  (congrFun (v17_eq m c) (ix3 b s q)).trans (xcat_pt (V m c main_v7) (V m c main_v14) _ _ b s q)

/-- The children's context rows flattened: column k·512 + o is child k's feature o. -/
theorem srcc_apply (b : Fin 8) (s : Fin 2048) (k : Fin 2) (o : Fin 512) (j : Fin 1024) (hj : j.val = k.val * 512 + o.val) :
    (V m c main_v15 : S8x2048x1024.Idx → EReal) (ix3 b s j) = scK m c (ix4 b s k o) :=
  (congrFun (v15_eq m c) (ix3 b s j)).trans (srcc_pt (V m c main_v13) _ b s k o j hj)

/-- The input gate's stacked weight and bias row. -/
theorem wi_apply (q : Fin 1536) (o : Fin 512) :
    (V m c main_v21 : S1536x512.Idx → EReal) (ix2 q o) = catW (prm m c).Wi_w (prm m c).Ui_w q o := by
  rw [v21_eq m c, V_main_arg5 m c, V_main_arg7 m c]
  exact stack_pt _ _ _ _ _ _ q o
theorem bi_apply (o : Fin 512) :
    (V m c main_v23 : S1x512.Idx → EReal) (ix2 (0 : Fin 1) o) = (prm m c).Wi_b (ix1 o) + (prm m c).Ui_b (ix1 o) := by
  rw [v23_eq m c, V_main_arg6 m c, V_main_arg8 m c]
  exact bias_pt _ _ _ o

/-- The forget gates' stacked weight and bias row: column k·512 + o is child k's output o. -/
theorem wf_apply (q : Fin 1536) (k : Fin 2) (o : Fin 512) (j : Fin 1024) (hj : j.val = k.val * 512 + o.val) :
    (V m c main_v29 : S1536x1024.Idx → EReal) (ix2 q j) = catWf (prm m c).Wf_w (prm m c).Uf_w q k o := by
  rw [v29_eq m c, V_main_arg9 m c, V_main_arg11 m c]
  exact stackF_pt _ _ _ _ _ _ _ _ q k o j hj
theorem bf_apply (k : Fin 2) (o : Fin 512) (j : Fin 1024) (hj : j.val = k.val * 512 + o.val) :
    (V m c main_v33 : S1x1024.Idx → EReal) (ix2 (0 : Fin 1) j) = (prm m c).Wf_b (ix2 k o) + (prm m c).Uf_b (ix2 k o) := by
  rw [v33_eq m c, V_main_arg10 m c, V_main_arg12 m c]
  exact biasF_pt _ _ _ _ k o j hj

/-- The output gate's stacked weight and bias row. -/
theorem wo_apply (q : Fin 1536) (o : Fin 512) :
    (V m c main_v37 : S1536x512.Idx → EReal) (ix2 q o) = catW (prm m c).Wo_w (prm m c).Uo_w q o := by
  rw [v37_eq m c, V_main_arg13 m c, V_main_arg15 m c]
  exact stack_pt _ _ _ _ _ _ q o
theorem bo_apply (o : Fin 512) :
    (V m c main_v39 : S1x512.Idx → EReal) (ix2 (0 : Fin 1) o) = (prm m c).Wo_b (ix1 o) + (prm m c).Uo_b (ix1 o) := by
  rw [v39_eq m c, V_main_arg14 m c, V_main_arg16 m c]
  exact bias_pt _ _ _ o

/-- The candidate's stacked weight and bias row. -/
theorem wc_apply (q : Fin 1536) (o : Fin 512) :
    (V m c main_v43 : S1536x512.Idx → EReal) (ix2 q o) = catW (prm m c).Wc_w (prm m c).Uc_w q o := by
  rw [v43_eq m c, V_main_arg17 m c, V_main_arg19 m c]
  exact stack_pt _ _ _ _ _ _ q o
theorem bc_apply (o : Fin 512) :
    (V m c main_v45 : S1x512.Idx → EReal) (ix2 (0 : Fin 1) o) = (prm m c).Wc_b (ix1 o) + (prm m c).Uc_b (ix1 o) := by
  rw [v45_eq m c, V_main_arg18 m c, V_main_arg20 m c]
  exact bias_pt _ _ _ o

end Cert.KernelIdeal.Host

end
-- ==== Proof.Blocks.lean ====
/-
  From one grid point's block to the whole result arrays.

  The grid has 8 × 4 points; point (b, si) works on batch entry b and the 512 positions
  si·512 … si·512 + 511.  Its activation tile is rows si·512 + r of the activation array at batch b,
  its context tile the same rows of the flattened context array, its two result tiles the same rows
  of the two results; the eight weight and bias operands are whole arrays at every point.

  At row r and feature o the body leaves tanh(c)·σ(o-gate) in the hidden tile and c in the context
  tile, with c = (σ(i-gate)·tanh(candidate) + σ(f₀)·s₀) + σ(f₁)·s₁, every gate a contraction of the
  tile's row against a stacked weight column plus a bias: the fused form of the cell at
  (b, si·512 + r, o).  The 32 tiles cover each result array, so the arrays end as the cell's two
  functions.
-/
import proofs.«127134_j38998303048339_1_alg».proof.Proof.KernelIdealValue
import proofs.«127134_j38998303048339_1_alg».proof.Proof.Gates
import proofs.«127134_j38998303048339_1_alg».proof.Proof.HostArrays
import proofs.«127134_j38998303048339_1_alg».proof.Proof.Spec

set_option maxRecDepth 16384

noncomputable section

namespace Cert.KernelIdeal.Blocks

open Cert.KernelIdeal Cert.KernelIdeal.Gen Cert.KernelIdeal.ValueP Cert.KernelIdeal.Gates Cert.KernelIdeal.Host Cert.TreeCell
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! ## One tile: the body's two results are the fused cell -/

section tile

variable (x0 : Vec Ideal S1x512x1536 .bf16) (x1 : Vec Ideal S1x512x1024 .f32)
  (x2 : Vec Ideal S1536x512 .bf16) (x3 : Vec Ideal S1x512 .f32)
  (x4 : Vec Ideal S1536x1024 .bf16) (x5 : Vec Ideal S1x1024 .f32)
  (x6 : Vec Ideal S1536x512 .bf16) (x7 : Vec Ideal S1x512 .f32)
  (x8 : Vec Ideal S1536x512 .bf16) (x9 : Vec Ideal S1x512 .f32)
  (rel : Arr3 8 2048 512) (lh : Arr3 8 2048 1024) (sc : Arr4 8 2048 2 512) (P : Params)
  (b : Fin 8) (pos : Fin 512 → Fin 2048)

/-- What the tiles hold, as hypotheses over one point's operands: the activation tile's row r is the
    fused activation row at position pos r, the context tile's row likewise, the weights stacked. -/
structure TileFacts : Prop where
  act : ∀ (r : Fin 512) (q : Fin 1536), x0 (ix3 (0 : Fin 1) r q) = catX rel lh b (pos r) q
  ctx : ∀ (r : Fin 512) (k : Fin 2) (o : Fin 512) (j : Fin 1024), j.val = k.val * 512 + o.val →
    x1 (ix3 (0 : Fin 1) r j) = sc (ix4 b (pos r) k o)
  wi : ∀ (q : Fin 1536) (o : Fin 512), x2 (ix2 q o) = catW P.Wi_w P.Ui_w q o
  bi : ∀ o : Fin 512, x3 (ix2 (0 : Fin 1) o) = P.Wi_b (ix1 o) + P.Ui_b (ix1 o)
  wf : ∀ (q : Fin 1536) (k : Fin 2) (o : Fin 512) (j : Fin 1024), j.val = k.val * 512 + o.val →
    x4 (ix2 q j) = catWf P.Wf_w P.Uf_w q k o
  bf : ∀ (k : Fin 2) (o : Fin 512) (j : Fin 1024), j.val = k.val * 512 + o.val →
    x5 (ix2 (0 : Fin 1) j) = P.Wf_b (ix2 k o) + P.Uf_b (ix2 k o)
  wo : ∀ (q : Fin 1536) (o : Fin 512), x6 (ix2 q o) = catW P.Wo_w P.Uo_w q o
  bo : ∀ o : Fin 512, x7 (ix2 (0 : Fin 1) o) = P.Wo_b (ix1 o) + P.Uo_b (ix1 o)
  wc : ∀ (q : Fin 1536) (o : Fin 512), x8 (ix2 q o) = catW P.Wc_w P.Uc_w q o
  bc : ∀ o : Fin 512, x9 (ix2 (0 : Fin 1) o) = P.Wc_b (ix1 o) + P.Uc_b (ix1 o)

variable {x0 x1 x2 x3 x4 x5 x6 x7 x8 x9 rel lh sc P b pos}

/-- A gate with a bias row, at row r and feature o: the fused pre-activation. -/
theorem gate_i (h : TileFacts x0 x1 x2 x3 x4 x5 x6 x7 x8 x9 rel lh sc P b pos) (r o : Fin 512) :
    k0_pay6 (F := Ideal) x0 x2 x3 (ix2 r o)
      = Ideal.logistic (preK rel lh P.Wi_w P.Wi_b P.Ui_w P.Ui_b b (pos r) o) := by
  rw [pay6_apply, h.bi]
  unfold preK
  congr 2
  exact Finset.sum_congr rfl fun q _ => by rw [h.act, h.wi]

theorem gate_o (h : TileFacts x0 x1 x2 x3 x4 x5 x6 x7 x8 x9 rel lh sc P b pos) (r o : Fin 512) :
    k0_pay8 (F := Ideal) x0 x6 x7 (ix2 r o)
      = Ideal.logistic (preK rel lh P.Wo_w P.Wo_b P.Uo_w P.Uo_b b (pos r) o) := by
  rw [pay8_apply, h.bo]
  unfold preK
  congr 2
  exact Finset.sum_congr rfl fun q _ => by rw [h.act, h.wo]

theorem gate_f (h : TileFacts x0 x1 x2 x3 x4 x5 x6 x7 x8 x9 rel lh sc P b pos) (r : Fin 512) (k : Fin 2) (o : Fin 512)
    (j : Fin 1024) (hj : j.val = k.val * 512 + o.val) :
    k0_pay7 (F := Ideal) x0 x4 x5 (ix2 r j)
      = Ideal.logistic (preFK rel lh P.Wf_w P.Wf_b P.Uf_w P.Uf_b b (pos r) k o) := by
  rw [pay7_apply, h.bf k o j hj]
  unfold preFK
  congr 2
  exact Finset.sum_congr rfl fun q _ => by rw [h.act, h.wf q k o j hj]

theorem cand (h : TileFacts x0 x1 x2 x3 x4 x5 x6 x7 x8 x9 rel lh sc P b pos) (r o : Fin 512) :
    k0_pay9 (F := Ideal) x0 x8 (ix2 r o) + x9 (ix2 (0 : Fin 1) o)
      = preK rel lh P.Wc_w P.Wc_b P.Uc_w P.Uc_b b (pos r) o := by
  rw [pay9_apply, h.bc]
  unfold preK
  congr 1
  exact Finset.sum_congr rfl fun q _ => by rw [h.act, h.wc]

end tile

/-! ## The two result tiles at an element -/

section tile2

variable {x0 : Vec Ideal S1x512x1536 .bf16} {x1 : Vec Ideal S1x512x1024 .f32}
  {x2 : Vec Ideal S1536x512 .bf16} {x3 : Vec Ideal S1x512 .f32}
  {x4 : Vec Ideal S1536x1024 .bf16} {x5 : Vec Ideal S1x1024 .f32}
  {x6 : Vec Ideal S1536x512 .bf16} {x7 : Vec Ideal S1x512 .f32}
  {x8 : Vec Ideal S1536x512 .bf16} {x9 : Vec Ideal S1x512 .f32}
  {rel : Arr3 8 2048 512} {lh : Arr3 8 2048 1024} {sc : Arr4 8 2048 2 512} {P : Params}
  {b : Fin 8} {pos : Fin 512 → Fin 2048}

/-- The context tile at (r, o): the fused cell's context at position pos r. -/
theorem tileC (h : TileFacts x0 x1 x2 x3 x4 x5 x6 x7 x8 x9 rel lh sc P b pos) (r o : Fin 512) :
    out0_11 x0 x1 x2 x3 x4 x5 x6 x7 x8 x9 (ix3 (0 : Fin 1) r o)
      = cellCK rel lh sc P b (pos r) o := by
  unfold out0_11
  simp only [View.ld_unit_zero (S := S1x512x1536) hz3, View.ld_unit_zero (S := S1x512x1024) hz3,
    View.ld_unit_zero (S := S1536x512) hz2, View.ld_unit_zero (S := S1x512) hz2,
    View.ld_unit_zero (S := S1536x1024) hz2, View.ld_unit_zero (S := S1x1024) hz2]
  rw [canon11_eq]
  have j1 : (⟨o.val + 512, by have := o.isLt; omega⟩ : Fin 1024).val = (1 : Fin 2).val * 512 + o.val := by
    show o.val + 512 = 1 * 512 + o.val; omega
  have j0 : (⟨o.val, by have := o.isLt; omega⟩ : Fin 1024).val = (0 : Fin 2).val * 512 + o.val := by
    show o.val = 0 * 512 + o.val; omega
  have e0 : ix11_0 (ix3 (0 : Fin 1) r o) = ix2 r o := funext fun a => Fin.ext (by match a with | ⟨0, _⟩ => rfl | ⟨1, _⟩ => rfl)
  have e1 : ix11_1 (ix3 (0 : Fin 1) r o) = ix2 r o := funext fun a => Fin.ext (by match a with | ⟨0, _⟩ => rfl | ⟨1, _⟩ => rfl)
  have e2 : ix11_2 (ix3 (0 : Fin 1) r o) = ix2 (0 : Fin 1) o := funext fun a => Fin.ext (by match a with | ⟨0, _⟩ => rfl | ⟨1, _⟩ => rfl)
  have e3 : ix11_3 (ix3 (0 : Fin 1) r o) = ix2 r (⟨o.val, by have := o.isLt; omega⟩ : Fin 1024) := funext fun a => Fin.ext (by match a with | ⟨0, _⟩ => rfl | ⟨1, _⟩ => rfl)
  have e4 : ix11_4 (ix3 (0 : Fin 1) r o) = ix3 (0 : Fin 1) r (⟨o.val, by have := o.isLt; omega⟩ : Fin 1024) := funext fun a => Fin.ext (by match a with | ⟨0, _⟩ => rfl | ⟨1, _⟩ => rfl | ⟨2, _⟩ => rfl)
  have e5 : ix11_5 (ix3 (0 : Fin 1) r o) = ix2 r (⟨o.val + 512, by have := o.isLt; omega⟩ : Fin 1024) := funext fun a => Fin.ext (by match a with | ⟨0, _⟩ => rfl | ⟨1, _⟩ => rfl)
  have e6 : ix11_6 (ix3 (0 : Fin 1) r o) = ix3 (0 : Fin 1) r (⟨o.val + 512, by have := o.isLt; omega⟩ : Fin 1024) := funext fun a => Fin.ext (by match a with | ⟨0, _⟩ => rfl | ⟨1, _⟩ => rfl | ⟨2, _⟩ => rfl)
  show (k0_pay6 (F := Ideal) x0 x2 x3 (ix11_0 (ix3 (0 : Fin 1) r o)) * Ideal.tanh (k0_pay9 (F := Ideal) x0 x8 (ix11_1 (ix3 (0 : Fin 1) r o)) + x9 (ix11_2 (ix3 (0 : Fin 1) r o)))
      + k0_pay7 (F := Ideal) x0 x4 x5 (ix11_3 (ix3 (0 : Fin 1) r o)) * x1 (ix11_4 (ix3 (0 : Fin 1) r o)))
      + k0_pay7 (F := Ideal) x0 x4 x5 (ix11_5 (ix3 (0 : Fin 1) r o)) * x1 (ix11_6 (ix3 (0 : Fin 1) r o)) = _
  rw [e0, e1, e2, e3, e4, e5, e6, gate_i h, cand h, gate_f h r 0 o _ j0, gate_f h r 1 o _ j1, h.ctx r 0 o _ j0, h.ctx r 1 o _ j1]
  rfl

/-- The hidden tile at (r, o): the fused cell's hidden state at position pos r. -/
theorem tileH (h : TileFacts x0 x1 x2 x3 x4 x5 x6 x7 x8 x9 rel lh sc P b pos) (r o : Fin 512) :
    out0_10 x0 x1 x2 x3 x4 x5 x6 x7 x8 x9 (ix3 (0 : Fin 1) r o)
      = cellHK rel lh sc P b (pos r) o := by
  unfold out0_10
  simp only [View.ld_unit_zero (S := S1x512x1536) hz3, View.ld_unit_zero (S := S1x512x1024) hz3,
    View.ld_unit_zero (S := S1536x512) hz2, View.ld_unit_zero (S := S1x512) hz2,
    View.ld_unit_zero (S := S1536x1024) hz2, View.ld_unit_zero (S := S1x1024) hz2]
  rw [canon10_eq]
  have j1 : (⟨o.val + 512, by have := o.isLt; omega⟩ : Fin 1024).val = (1 : Fin 2).val * 512 + o.val := by
    show o.val + 512 = 1 * 512 + o.val; omega
  have j0 : (⟨o.val, by have := o.isLt; omega⟩ : Fin 1024).val = (0 : Fin 2).val * 512 + o.val := by
    show o.val = 0 * 512 + o.val; omega
  have e0 : ix10_0 (ix3 (0 : Fin 1) r o) = ix2 r o := funext fun a => Fin.ext (by match a with | ⟨0, _⟩ => rfl | ⟨1, _⟩ => rfl)
  have e1 : ix10_1 (ix3 (0 : Fin 1) r o) = ix2 r o := funext fun a => Fin.ext (by match a with | ⟨0, _⟩ => rfl | ⟨1, _⟩ => rfl)
  have e2 : ix10_2 (ix3 (0 : Fin 1) r o) = ix2 (0 : Fin 1) o := funext fun a => Fin.ext (by match a with | ⟨0, _⟩ => rfl | ⟨1, _⟩ => rfl)
  have e3 : ix10_3 (ix3 (0 : Fin 1) r o) = ix2 r (⟨o.val, by have := o.isLt; omega⟩ : Fin 1024) := funext fun a => Fin.ext (by match a with | ⟨0, _⟩ => rfl | ⟨1, _⟩ => rfl)
  have e4 : ix10_4 (ix3 (0 : Fin 1) r o) = ix3 (0 : Fin 1) r (⟨o.val, by have := o.isLt; omega⟩ : Fin 1024) := funext fun a => Fin.ext (by match a with | ⟨0, _⟩ => rfl | ⟨1, _⟩ => rfl | ⟨2, _⟩ => rfl)
  have e5 : ix10_5 (ix3 (0 : Fin 1) r o) = ix2 r (⟨o.val + 512, by have := o.isLt; omega⟩ : Fin 1024) := funext fun a => Fin.ext (by match a with | ⟨0, _⟩ => rfl | ⟨1, _⟩ => rfl)
  have e6 : ix10_6 (ix3 (0 : Fin 1) r o) = ix3 (0 : Fin 1) r (⟨o.val + 512, by have := o.isLt; omega⟩ : Fin 1024) := funext fun a => Fin.ext (by match a with | ⟨0, _⟩ => rfl | ⟨1, _⟩ => rfl | ⟨2, _⟩ => rfl)
  have e7 : ix10_7 (ix3 (0 : Fin 1) r o) = ix2 r o := funext fun a => Fin.ext (by match a with | ⟨0, _⟩ => rfl | ⟨1, _⟩ => rfl)
  show Ideal.tanh ((k0_pay6 (F := Ideal) x0 x2 x3 (ix10_0 (ix3 (0 : Fin 1) r o)) * Ideal.tanh (k0_pay9 (F := Ideal) x0 x8 (ix10_1 (ix3 (0 : Fin 1) r o)) + x9 (ix10_2 (ix3 (0 : Fin 1) r o)))
      + k0_pay7 (F := Ideal) x0 x4 x5 (ix10_3 (ix3 (0 : Fin 1) r o)) * x1 (ix10_4 (ix3 (0 : Fin 1) r o)))
      + k0_pay7 (F := Ideal) x0 x4 x5 (ix10_5 (ix3 (0 : Fin 1) r o)) * x1 (ix10_6 (ix3 (0 : Fin 1) r o)))
      * k0_pay8 (F := Ideal) x0 x6 x7 (ix10_7 (ix3 (0 : Fin 1) r o)) = _
  rw [e0, e1, e2, e3, e4, e5, e6, e7, gate_i h, cand h, gate_f h r 0 o _ j0, gate_f h r 1 o _ j1, h.ctx r 0 o _ j0, h.ctx r 1 o _ j1, gate_o h]
  rfl

end tile2

end Cert.KernelIdeal.Blocks

end
-- ==== Proof.Arrays.lean ====
/-
  The grid's 32 tiles, each the fused cell on its rows, cover the two result arrays.

  Point t of the 8 × 4 grid has block index (b, si, 0) in the activation, context and result arrays
  and block index (0, 0) in every weight and bias array: so its activation tile's row r is row
  si·512 + r of batch entry b, and its weight tiles are the whole stacked weights.  With the tile
  lemma this makes what point t writes back the restriction of the cell's function to its block,
  and since every position s lies in the block with si = s / 512, the arrays end as that function.
-/
import proofs.«127134_j38998303048339_1_alg».proof.Proof.Blocks

set_option maxRecDepth 16384

noncomputable section

namespace Cert.KernelIdeal.Arrays

open Cert.KernelIdeal Cert.KernelIdeal.Gen Cert.KernelIdeal.ValueP Cert.KernelIdeal.Host Cert.KernelIdeal.Blocks Cert.TreeCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps over the grid -/

/-- Every window's block index at every point: the four tiled arrays move together over (b, si) with
    the last axis whole, the eight weight and bias arrays stay at their one block. -/
theorem idx_facts : ∀ t : Fin cfg0.N,
    win0_10.index t (0 : Fin 3) < 8 ∧ win0_10.index t (1 : Fin 3) < 4 ∧ win0_10.index t (2 : Fin 3) = 0
    ∧ win0_11.index t (0 : Fin 3) = win0_10.index t (0 : Fin 3) ∧ win0_11.index t (1 : Fin 3) = win0_10.index t (1 : Fin 3) ∧ win0_11.index t (2 : Fin 3) = 0
    ∧ win0_0.index t (0 : Fin 3) = win0_10.index t (0 : Fin 3) ∧ win0_0.index t (1 : Fin 3) = win0_10.index t (1 : Fin 3) ∧ win0_0.index t (2 : Fin 3) = 0
    ∧ win0_1.index t (0 : Fin 3) = win0_10.index t (0 : Fin 3) ∧ win0_1.index t (1 : Fin 3) = win0_10.index t (1 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every (b, si) is some point's block index. -/
theorem idx_onto : ∀ (q0 : Fin 8) (q1 : Fin 4), ∃ t : Fin cfg0.N, win0_10.index t = ![q0.val, q1.val, 0] :=
  (by decide +kernel : ∀ (q0 : Fin 8) (q1 : Fin 4), ∃ t : Fin grid0.N, win0_10.index t = ![q0.val, q1.val, 0])

/-- Point t's batch entry. -/
def pb (t : Fin cfg0.N) : Fin 8 := ⟨win0_10.index t (0 : Fin 3), (idx_facts t).1⟩
/-- Point t's first position. -/
def ps (t : Fin cfg0.N) : ℕ := win0_10.index t (1 : Fin 3) * 512
theorem ps_le (t : Fin cfg0.N) : ps t + 512 ≤ 2048 := by
  have := (idx_facts t).2.1
  unfold ps
  omega

/-- Row r of point t's tiles is position si·512 + r. -/
def pp (t : Fin cfg0.N) (r : Fin 512) : Fin 2048 := ⟨ps t + r.val, by have := ps_le t; have := r.isLt; omega⟩

/-! ## What point t's operand tiles hold -/

/-- A tile read through its window is the array at the block's index (one lemma per window), and where
    that index lies: the four tiled arrays at (b, si·512 + r, ·), the weights at the index itself. -/
theorem read_blk0 (A : S8x2048x1536.Idx → EReal) (t : Fin cfg0.N) (y : S1x512x1536.Idx) :
    ((cfg0.win 0).blk t).view.read (Elt Ideal) A y = A (((cfg0.win 0).blk t).view.emb y) := rfl

theorem rd0 (c : Dev nD) (t : Fin cfg0.N) (y : S1x512x1536.Idx) :
    (iblk m c 0 t : S1x512x1536.Idx → EReal) y = (V m c main_v17 : S8x2048x1536.Idx → EReal) (((cfg0.win 0).blk t).view.emb y) :=
  read_blk0 (V m c main_v17) t y

theorem he0 (t : Fin cfg0.N) (r : Fin 512) (q : Fin 1536) :
    ((cfg0.win 0).blk t).view.emb (ix3 (0 : Fin 1) r q) = ix3 (pb t) (pp t r) q := by
  obtain ⟨-, -, -, -, -, -, a0, a1, a2, -⟩ := idx_facts t
  have hr : r.val < 512 := r.isLt
  exact funext fun a => Fin.ext (by
      match a with
      | ⟨0, _⟩ => show win0_0.index t (0 : Fin 3) * 1 + 1 * 0 = win0_10.index t (0 : Fin 3); omega
      | ⟨1, _⟩ => show win0_0.index t (1 : Fin 3) * 512 + 1 * r.val = win0_10.index t (1 : Fin 3) * 512 + r.val; omega
      | ⟨2, _⟩ => show win0_0.index t (2 : Fin 3) * 1536 + 1 * q.val = q.val; omega)

theorem read_blk1 (A : S8x2048x1024.Idx → EReal) (t : Fin cfg0.N) (y : S1x512x1024.Idx) :
    ((cfg0.win 1).blk t).view.read (Elt Ideal) A y = A (((cfg0.win 1).blk t).view.emb y) := rfl

theorem rd1 (c : Dev nD) (t : Fin cfg0.N) (y : S1x512x1024.Idx) :
    (iblk m c 1 t : S1x512x1024.Idx → EReal) y = (V m c main_v15 : S8x2048x1024.Idx → EReal) (((cfg0.win 1).blk t).view.emb y) :=
  read_blk1 (V m c main_v15) t y

theorem he1 (t : Fin cfg0.N) (r : Fin 512) (j : Fin 1024) :
    ((cfg0.win 1).blk t).view.emb (ix3 (0 : Fin 1) r j) = ix3 (pb t) (pp t r) j := by
  obtain ⟨-, -, -, -, -, -, -, -, -, s0, s1, s2, -⟩ := idx_facts t
  have hr : r.val < 512 := r.isLt
  exact funext fun a => Fin.ext (by
      match a with
      | ⟨0, _⟩ => show win0_1.index t (0 : Fin 3) * 1 + 1 * 0 = win0_10.index t (0 : Fin 3); omega
      | ⟨1, _⟩ => show win0_1.index t (1 : Fin 3) * 512 + 1 * r.val = win0_10.index t (1 : Fin 3) * 512 + r.val; omega
      | ⟨2, _⟩ => show win0_1.index t (2 : Fin 3) * 1024 + 1 * j.val = j.val; omega)

theorem read_blk2 (A : S1536x512.Idx → EReal) (t : Fin cfg0.N) (y : S1536x512.Idx) :
    ((cfg0.win 2).blk t).view.read (Elt Ideal) A y = A (((cfg0.win 2).blk t).view.emb y) := rfl

theorem rd2 (c : Dev nD) (t : Fin cfg0.N) (y : S1536x512.Idx) :
    (iblk m c 2 t : S1536x512.Idx → EReal) y = (V m c main_v21 : S1536x512.Idx → EReal) (((cfg0.win 2).blk t).view.emb y) :=
  read_blk2 (V m c main_v21) t y

theorem he2 (t : Fin cfg0.N) (y : S1536x512.Idx) : ((cfg0.win 2).blk t).view.emb y = y := by
  obtain ⟨-, -, -, -, -, -, -, -, -, -, -, -, w20, w21, -⟩ := idx_facts t
  exact funext fun a => Fin.ext (by
      match a with
      | ⟨0, _⟩ => show win0_2.index t (0 : Fin 2) * 1536 + 1 * (y 0).val = (y 0).val; omega
      | ⟨1, _⟩ => show win0_2.index t (1 : Fin 2) * 512 + 1 * (y 1).val = (y 1).val; omega)

theorem read_blk3 (A : S1x512.Idx → EReal) (t : Fin cfg0.N) (y : S1x512.Idx) :
    ((cfg0.win 3).blk t).view.read (Elt Ideal) A y = A (((cfg0.win 3).blk t).view.emb y) := rfl

theorem rd3 (c : Dev nD) (t : Fin cfg0.N) (y : S1x512.Idx) :
    (iblk m c 3 t : S1x512.Idx → EReal) y = (V m c main_v23 : S1x512.Idx → EReal) (((cfg0.win 3).blk t).view.emb y) :=
  read_blk3 (V m c main_v23) t y

theorem he3 (t : Fin cfg0.N) (y : S1x512.Idx) : ((cfg0.win 3).blk t).view.emb y = y := by
  obtain ⟨-, -, -, -, -, -, -, -, -, -, -, -, -, -, w30, w31, -⟩ := idx_facts t
  exact funext fun a => Fin.ext (by
      match a with
      | ⟨0, _⟩ => show win0_3.index t (0 : Fin 2) * 1 + 1 * (y 0).val = (y 0).val; omega
      | ⟨1, _⟩ => show win0_3.index t (1 : Fin 2) * 512 + 1 * (y 1).val = (y 1).val; omega)

theorem read_blk4 (A : S1536x1024.Idx → EReal) (t : Fin cfg0.N) (y : S1536x1024.Idx) :
    ((cfg0.win 4).blk t).view.read (Elt Ideal) A y = A (((cfg0.win 4).blk t).view.emb y) := rfl

theorem rd4 (c : Dev nD) (t : Fin cfg0.N) (y : S1536x1024.Idx) :
    (iblk m c 4 t : S1536x1024.Idx → EReal) y = (V m c main_v29 : S1536x1024.Idx → EReal) (((cfg0.win 4).blk t).view.emb y) :=
  read_blk4 (V m c main_v29) t y

theorem he4 (t : Fin cfg0.N) (y : S1536x1024.Idx) : ((cfg0.win 4).blk t).view.emb y = y := by
  obtain ⟨-, -, -, -, -, -, -, -, -, -, -, -, -, -, -, -, w40, w41, -⟩ := idx_facts t
  exact funext fun a => Fin.ext (by
      match a with
      | ⟨0, _⟩ => show win0_4.index t (0 : Fin 2) * 1536 + 1 * (y 0).val = (y 0).val; omega
      | ⟨1, _⟩ => show win0_4.index t (1 : Fin 2) * 1024 + 1 * (y 1).val = (y 1).val; omega)

theorem read_blk5 (A : S1x1024.Idx → EReal) (t : Fin cfg0.N) (y : S1x1024.Idx) :
    ((cfg0.win 5).blk t).view.read (Elt Ideal) A y = A (((cfg0.win 5).blk t).view.emb y) := rfl

theorem rd5 (c : Dev nD) (t : Fin cfg0.N) (y : S1x1024.Idx) :
    (iblk m c 5 t : S1x1024.Idx → EReal) y = (V m c main_v33 : S1x1024.Idx → EReal) (((cfg0.win 5).blk t).view.emb y) :=
  read_blk5 (V m c main_v33) t y

theorem he5 (t : Fin cfg0.N) (y : S1x1024.Idx) : ((cfg0.win 5).blk t).view.emb y = y := by
  obtain ⟨-, -, -, -, -, -, -, -, -, -, -, -, -, -, -, -, -, -, w50, w51, -⟩ := idx_facts t
  exact funext fun a => Fin.ext (by
      match a with
      | ⟨0, _⟩ => show win0_5.index t (0 : Fin 2) * 1 + 1 * (y 0).val = (y 0).val; omega
      | ⟨1, _⟩ => show win0_5.index t (1 : Fin 2) * 1024 + 1 * (y 1).val = (y 1).val; omega)

theorem read_blk6 (A : S1536x512.Idx → EReal) (t : Fin cfg0.N) (y : S1536x512.Idx) :
    ((cfg0.win 6).blk t).view.read (Elt Ideal) A y = A (((cfg0.win 6).blk t).view.emb y) := rfl

theorem rd6 (c : Dev nD) (t : Fin cfg0.N) (y : S1536x512.Idx) :
    (iblk m c 6 t : S1536x512.Idx → EReal) y = (V m c main_v37 : S1536x512.Idx → EReal) (((cfg0.win 6).blk t).view.emb y) :=
  read_blk6 (V m c main_v37) t y

theorem he6 (t : Fin cfg0.N) (y : S1536x512.Idx) : ((cfg0.win 6).blk t).view.emb y = y := by
  obtain ⟨-, -, -, -, -, -, -, -, -, -, -, -, -, -, -, -, -, -, -, -, w60, w61, -⟩ := idx_facts t
  exact funext fun a => Fin.ext (by
      match a with
      | ⟨0, _⟩ => show win0_6.index t (0 : Fin 2) * 1536 + 1 * (y 0).val = (y 0).val; omega
      | ⟨1, _⟩ => show win0_6.index t (1 : Fin 2) * 512 + 1 * (y 1).val = (y 1).val; omega)

theorem read_blk7 (A : S1x512.Idx → EReal) (t : Fin cfg0.N) (y : S1x512.Idx) :
    ((cfg0.win 7).blk t).view.read (Elt Ideal) A y = A (((cfg0.win 7).blk t).view.emb y) := rfl

theorem rd7 (c : Dev nD) (t : Fin cfg0.N) (y : S1x512.Idx) :
    (iblk m c 7 t : S1x512.Idx → EReal) y = (V m c main_v39 : S1x512.Idx → EReal) (((cfg0.win 7).blk t).view.emb y) :=
  read_blk7 (V m c main_v39) t y

theorem he7 (t : Fin cfg0.N) (y : S1x512.Idx) : ((cfg0.win 7).blk t).view.emb y = y := by
  obtain ⟨-, -, -, -, -, -, -, -, -, -, -, -, -, -, -, -, -, -, -, -, -, -, w70, w71, -⟩ := idx_facts t
  exact funext fun a => Fin.ext (by
      match a with
      | ⟨0, _⟩ => show win0_7.index t (0 : Fin 2) * 1 + 1 * (y 0).val = (y 0).val; omega
      | ⟨1, _⟩ => show win0_7.index t (1 : Fin 2) * 512 + 1 * (y 1).val = (y 1).val; omega)

theorem read_blk8 (A : S1536x512.Idx → EReal) (t : Fin cfg0.N) (y : S1536x512.Idx) :
    ((cfg0.win 8).blk t).view.read (Elt Ideal) A y = A (((cfg0.win 8).blk t).view.emb y) := rfl

theorem rd8 (c : Dev nD) (t : Fin cfg0.N) (y : S1536x512.Idx) :
    (iblk m c 8 t : S1536x512.Idx → EReal) y = (V m c main_v43 : S1536x512.Idx → EReal) (((cfg0.win 8).blk t).view.emb y) :=
  read_blk8 (V m c main_v43) t y

theorem he8 (t : Fin cfg0.N) (y : S1536x512.Idx) : ((cfg0.win 8).blk t).view.emb y = y := by
  obtain ⟨-, -, -, -, -, -, -, -, -, -, -, -, -, -, -, -, -, -, -, -, -, -, -, -, w80, w81, -⟩ := idx_facts t
  exact funext fun a => Fin.ext (by
      match a with
      | ⟨0, _⟩ => show win0_8.index t (0 : Fin 2) * 1536 + 1 * (y 0).val = (y 0).val; omega
      | ⟨1, _⟩ => show win0_8.index t (1 : Fin 2) * 512 + 1 * (y 1).val = (y 1).val; omega)

theorem read_blk9 (A : S1x512.Idx → EReal) (t : Fin cfg0.N) (y : S1x512.Idx) :
    ((cfg0.win 9).blk t).view.read (Elt Ideal) A y = A (((cfg0.win 9).blk t).view.emb y) := rfl

theorem rd9 (c : Dev nD) (t : Fin cfg0.N) (y : S1x512.Idx) :
    (iblk m c 9 t : S1x512.Idx → EReal) y = (V m c main_v45 : S1x512.Idx → EReal) (((cfg0.win 9).blk t).view.emb y) :=
  read_blk9 (V m c main_v45) t y

theorem he9 (t : Fin cfg0.N) (y : S1x512.Idx) : ((cfg0.win 9).blk t).view.emb y = y := by
  obtain ⟨-, -, -, -, -, -, -, -, -, -, -, -, -, -, -, -, -, -, -, -, -, -, -, -, -, -, w90, w91⟩ := idx_facts t
  exact funext fun a => Fin.ext (by
      match a with
      | ⟨0, _⟩ => show win0_9.index t (0 : Fin 2) * 1 + 1 * (y 0).val = (y 0).val; omega
      | ⟨1, _⟩ => show win0_9.index t (1 : Fin 2) * 512 + 1 * (y 1).val = (y 1).val; omega)

/-- The activation tile's row r is the fused activation row at the point's position r. -/
theorem read0 (c : Dev nD) (t : Fin cfg0.N) (r : Fin 512) (q : Fin 1536) :
    (iblk m c 0 t : S1x512x1536.Idx → EReal) (ix3 (0 : Fin 1) r q) = catX (relK m c) (lhK m c) (pb t) (pp t r) q := by
  rw [rd0, he0]
  exact xcat_apply m c (pb t) _ q

/-- The context tile's row r, column k·512 + o, is child k's context feature o at the point's position r. -/
theorem read1 (c : Dev nD) (t : Fin cfg0.N) (r : Fin 512) (k : Fin 2) (o : Fin 512) (j : Fin 1024) (hj : j.val = k.val * 512 + o.val) :
    (iblk m c 1 t : S1x512x1024.Idx → EReal) (ix3 (0 : Fin 1) r j) = scK m c (ix4 (pb t) (pp t r) k o) := by
  rw [rd1, he1]
  exact srcc_apply m c (pb t) _ k o j hj

/-- The input gate's weight tile is the whole stacked weight. -/
theorem read2 (c : Dev nD) (t : Fin cfg0.N) (q : Fin 1536) (o : Fin 512) :
    (iblk m c 2 t : S1536x512.Idx → EReal) (ix2 q o) = catW (prm m c).Wi_w (prm m c).Ui_w q o := by
  rw [rd2, he2]
  exact wi_apply m c q o

/-- The input gate's bias tile is the whole summed bias row. -/
theorem read3 (c : Dev nD) (t : Fin cfg0.N) (o : Fin 512) :
    (iblk m c 3 t : S1x512.Idx → EReal) (ix2 (0 : Fin 1) o) = (prm m c).Wi_b (ix1 o) + (prm m c).Ui_b (ix1 o) := by
  rw [rd3, he3]
  exact bi_apply m c o

/-- The forget gates' weight tile is the whole stacked weight. -/
theorem read4 (c : Dev nD) (t : Fin cfg0.N) (q : Fin 1536) (k : Fin 2) (o : Fin 512) (j : Fin 1024) (hj : j.val = k.val * 512 + o.val) :
    (iblk m c 4 t : S1536x1024.Idx → EReal) (ix2 q j) = catWf (prm m c).Wf_w (prm m c).Uf_w q k o := by
  rw [rd4, he4]
  exact wf_apply m c q k o j hj

/-- The forget gates' bias tile is the whole summed bias row. -/
theorem read5 (c : Dev nD) (t : Fin cfg0.N) (k : Fin 2) (o : Fin 512) (j : Fin 1024) (hj : j.val = k.val * 512 + o.val) :
    (iblk m c 5 t : S1x1024.Idx → EReal) (ix2 (0 : Fin 1) j) = (prm m c).Wf_b (ix2 k o) + (prm m c).Uf_b (ix2 k o) := by
  rw [rd5, he5]
  exact bf_apply m c k o j hj

/-- The output gate's weight tile is the whole stacked weight. -/
theorem read6 (c : Dev nD) (t : Fin cfg0.N) (q : Fin 1536) (o : Fin 512) :
    (iblk m c 6 t : S1536x512.Idx → EReal) (ix2 q o) = catW (prm m c).Wo_w (prm m c).Uo_w q o := by
  rw [rd6, he6]
  exact wo_apply m c q o

/-- The output gate's bias tile is the whole summed bias row. -/
theorem read7 (c : Dev nD) (t : Fin cfg0.N) (o : Fin 512) :
    (iblk m c 7 t : S1x512.Idx → EReal) (ix2 (0 : Fin 1) o) = (prm m c).Wo_b (ix1 o) + (prm m c).Uo_b (ix1 o) := by
  rw [rd7, he7]
  exact bo_apply m c o

/-- The candidate's weight tile is the whole stacked weight. -/
theorem read8 (c : Dev nD) (t : Fin cfg0.N) (q : Fin 1536) (o : Fin 512) :
    (iblk m c 8 t : S1536x512.Idx → EReal) (ix2 q o) = catW (prm m c).Wc_w (prm m c).Uc_w q o := by
  rw [rd8, he8]
  exact wc_apply m c q o

/-- The candidate's bias tile is the whole summed bias row. -/
theorem read9 (c : Dev nD) (t : Fin cfg0.N) (o : Fin 512) :
    (iblk m c 9 t : S1x512.Idx → EReal) (ix2 (0 : Fin 1) o) = (prm m c).Wc_b (ix1 o) + (prm m c).Uc_b (ix1 o) := by
  rw [rd9, he9]
  exact bc_apply m c o

theorem facts (c : Dev nD) (t : Fin cfg0.N) :
    TileFacts (iblk m c 0 t) (iblk m c 1 t) (iblk m c 2 t) (iblk m c 3 t) (iblk m c 4 t) (iblk m c 5 t) (iblk m c 6 t) (iblk m c 7 t) (iblk m c 8 t) (iblk m c 9 t)
      (relK m c) (lhK m c) (scK m c) (prm m c) (pb t) (pp t) :=
  ⟨read0 m c t, read1 m c t, read2 m c t, read3 m c t, read4 m c t, read5 m c t, read6 m c t, read7 m c t, read8 m c t, read9 m c t⟩

/-! ## What point t writes back -/

/-- The hidden result: point t writes back block t of the cell's hidden-state array. -/
theorem flushedH (c : Dev nD) (t : Fin cfg0.N) :
    (dats m 0 c).flushed 10 t
      = ((cfg0.win 10).blk t).view.read (Elt Ideal) (arrH (relK m c) (lhK m c) (scK m c) (prm m c)) := by
  obtain ⟨b0, b1, b2, -⟩ := idx_facts t
  rw [flushed10]
  funext j
  have hj0 : (j 0).val < 1 := (j 0).isLt
  have hj1 : (j 1).val < 512 := (j 1).isLt
  have hj2 : (j 2).val < 512 := (j 2).isLt
  have hx : (cfg0.win 10).xinj (grid0.coords t) j = ix3 (0 : Fin 1) (⟨(j 1).val, hj1⟩ : Fin 512) (⟨(j 2).val, hj2⟩ : Fin 512) :=
    funext fun a => Fin.ext (by
      match a with
      | ⟨0, _⟩ => show (j 0).val = 0; omega
      | ⟨1, _⟩ => rfl
      | ⟨2, _⟩ => rfl)
  show out0_10 (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) j)
    = arrH (relK m c) (lhK m c) (scK m c) (prm m c) (((cfg0.win 10).blk t).view.emb j)
  rw [hx]
  refine (tileH (facts m c t) _ _).trans ?_
  rw [cellHK_eq]
  unfold arrH
  congr 1 <;> apply Fin.ext
  · show win0_10.index t (0 : Fin 3) = win0_10.index t (0 : Fin 3) * 1 + 1 * (j 0).val; omega
  · show ps t + (j 1).val = win0_10.index t (1 : Fin 3) * 512 + 1 * (j 1).val; unfold ps; omega
  · show (j 2).val = win0_10.index t (2 : Fin 3) * 512 + 1 * (j 2).val; omega

/-- The context result: point t writes back block t of the cell's context array. -/
theorem flushedC (c : Dev nD) (t : Fin cfg0.N) :
    (dats m 0 c).flushed 11 t
      = ((cfg0.win 11).blk t).view.read (Elt Ideal) (arrC (relK m c) (lhK m c) (scK m c) (prm m c)) := by
  obtain ⟨b0, b1, b2, c0, c1, c2, -⟩ := idx_facts t
  rw [flushed11]
  funext j
  have hj0 : (j 0).val < 1 := (j 0).isLt
  have hj1 : (j 1).val < 512 := (j 1).isLt
  have hj2 : (j 2).val < 512 := (j 2).isLt
  have hx : (cfg0.win 11).xinj (grid0.coords t) j = ix3 (0 : Fin 1) (⟨(j 1).val, hj1⟩ : Fin 512) (⟨(j 2).val, hj2⟩ : Fin 512) :=
    funext fun a => Fin.ext (by
      match a with
      | ⟨0, _⟩ => show (j 0).val = 0; omega
      | ⟨1, _⟩ => rfl
      | ⟨2, _⟩ => rfl)
  show out0_11 (iblk m c 0 t) (iblk m c 1 t) (iblk m c 2 t) (iblk m c 3 t) (iblk m c 4 t) (iblk m c 5 t) (iblk m c 6 t) (iblk m c 7 t) (iblk m c 8 t) (iblk m c 9 t) ((cfg0.win 11).xinj (grid0.coords t) j)
    = arrC (relK m c) (lhK m c) (scK m c) (prm m c) (((cfg0.win 11).blk t).view.emb j)
  rw [hx]
  refine (tileC (facts m c t) _ _).trans ?_
  rw [cellCK_eq]
  unfold arrC
  congr 1 <;> apply Fin.ext
  · show win0_10.index t (0 : Fin 3) = win0_11.index t (0 : Fin 3) * 1 + 1 * (j 0).val; omega
  · show ps t + (j 1).val = win0_11.index t (1 : Fin 3) * 512 + 1 * (j 1).val; unfold ps; omega
  · show (j 2).val = win0_11.index t (2 : Fin 3) * 512 + 1 * (j 2).val; omega

/-! ## The tiles cover the arrays -/

theorem mem_blkH (t : Fin cfg0.N) (i : S8x2048x512.Idx) :
    i ∈ ((cfg0.win 10).blk t).view.set ↔ ∀ a : Fin 3, win0_10.index t a * S1x512x512.size a ≤ (i a).val ∧ (i a).val < win0_10.index t a * S1x512x512.size a + S1x512x512.size a := by
  show i ∈ ((View.whole main_v46_0).slice (win0_10.rect t)).set ↔ _
  rw [View.set_slice_whole, Rect.mem_set_unit]
  exact Iff.rfl

theorem mem_blkC (t : Fin cfg0.N) (i : S8x2048x512.Idx) :
    i ∈ ((cfg0.win 11).blk t).view.set ↔ ∀ a : Fin 3, win0_11.index t a * S1x512x512.size a ≤ (i a).val ∧ (i a).val < win0_11.index t a * S1x512x512.size a + S1x512x512.size a := by
  show i ∈ ((View.whole main_v46_1).slice (win0_11.rect t)).set ↔ _
  rw [View.set_slice_whole, Rect.mem_set_unit]
  exact Iff.rfl

/-- Position s of batch entry b lies in the block of the point with block index (b, s / 512). -/
theorem coverH (i : S8x2048x512.Idx) : ∃ t : Fin cfg0.N, (cfg0.win 10).flush t = true ∧ i ∈ ((cfg0.win 10).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_10.index t (0 : Fin 3) = (i 0).val := congrFun ht 0
  have q1 : win0_10.index t (1 : Fin 3) = (i 1).val / 512 := congrFun ht 1
  have q2 : win0_10.index t (2 : Fin 3) = 0 := congrFun ht 2
  refine ⟨t, flush0_10 t, ?_⟩
  rw [mem_blkH]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 512 ≤ (i 2).val ∧ (i 2).val < win0_10.index t (2 : Fin 3) * 512 + 512; omega

theorem coverC (i : S8x2048x512.Idx) : ∃ t : Fin cfg0.N, (cfg0.win 11).flush t = true ∧ i ∈ ((cfg0.win 11).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_10.index t (0 : Fin 3) = (i 0).val := congrFun ht 0
  have q1 : win0_10.index t (1 : Fin 3) = (i 1).val / 512 := congrFun ht 1
  obtain ⟨b0, b1, b2, c0, c1, c2, -⟩ := idx_facts t
  refine ⟨t, flush0_11 t, ?_⟩
  rw [mem_blkC]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 512 ≤ (i 2).val ∧ (i 2).val < win0_11.index t (2 : Fin 3) * 512 + 512; omega

/-! ## The arrays after the run -/

theorem finalH (c : Dev nD) : (dats m 0 c).arrAt 10 cfg0.N = arrH (relK m c) (lhK m c) (scK m c) (prm m c) :=
  (dats m 0 c).arrAt_eq_of_cover 10 (arrH (relK m c) (lhK m c) (scK m c) (prm m c)) (fun t _ => flushedH m c t) coverH

theorem finalC (c : Dev nD) : (dats m 0 c).arrAt 11 cfg0.N = arrC (relK m c) (lhK m c) (scK m c) (prm m c) :=
  (dats m 0 c).arrAt_eq_of_cover 11 (arrC (relK m c) (lhK m c) (scK m c) (prm m c)) (fun t _ => flushedC m c t) coverC

end Cert.KernelIdeal.Arrays

end
-- ==== Proof.RefCell.lean ====
/-
  The two-layer program's results, read at one element, are the cell's two functions.
-/
import proofs.«127134_j38998303048339_1_alg».proof.Proof.ReferenceIdealRead
import proofs.«127134_j38998303048339_1_alg».proof.Proof.Spec
import Idealize.ShloMosaic.Lib.IdealHost

noncomputable section

namespace Cert.ReferenceIdeal.Cell

open Cert.ReferenceIdeal Cert.ReferenceIdeal.ReadP Cert.TreeCell Idealize.ShloMosaic Idealize.ShloMosaic.ValueIdx

variable (x0 : (⟨S8x2048, .i32⟩ : BufTy).Contents (Elt Ideal)) (x1 x2 : (⟨S8x4096x512, .f32⟩ : BufTy).Contents (Elt Ideal))
  (x3 : (⟨S8x2048x2, .i32⟩ : BufTy).Contents (Elt Ideal)) (x4 : (⟨S64x512, .f32⟩ : BufTy).Contents (Elt Ideal))
  (x5 : (⟨S512x512, .f32⟩ : BufTy).Contents (Elt Ideal)) (x6 : (⟨S512, .f32⟩ : BufTy).Contents (Elt Ideal))
  (x7 : (⟨S512x1024, .f32⟩ : BufTy).Contents (Elt Ideal)) (x8 : (⟨S512, .f32⟩ : BufTy).Contents (Elt Ideal))
  (x9 : (⟨S2x512x512, .f32⟩ : BufTy).Contents (Elt Ideal)) (x10 : (⟨S2x512, .f32⟩ : BufTy).Contents (Elt Ideal))
  (x11 : (⟨S2x512x1024, .f32⟩ : BufTy).Contents (Elt Ideal)) (x12 : (⟨S2x512, .f32⟩ : BufTy).Contents (Elt Ideal))
  (x13 : (⟨S512x512, .f32⟩ : BufTy).Contents (Elt Ideal)) (x14 : (⟨S512, .f32⟩ : BufTy).Contents (Elt Ideal))
  (x15 : (⟨S512x1024, .f32⟩ : BufTy).Contents (Elt Ideal)) (x16 : (⟨S512, .f32⟩ : BufTy).Contents (Elt Ideal))
  (x17 : (⟨S512x512, .f32⟩ : BufTy).Contents (Elt Ideal)) (x18 : (⟨S512, .f32⟩ : BufTy).Contents (Elt Ideal))
  (x19 : (⟨S512x1024, .f32⟩ : BufTy).Contents (Elt Ideal)) (x20 : (⟨S512, .f32⟩ : BufTy).Contents (Elt Ideal))

/-- The weights as the cell's parameter record. -/
def prmR : Params := ⟨x5, x6, x7, x8, x9, x10, x11, x12, x13, x14, x15, x16, x17, x18, x19, x20⟩

/-! ## The sigmoid as the program spells it -/

/-- `1 / (1 + exp (-x))`, the two ones given by their bit patterns, is the logistic function. -/
theorem sig_spelling (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  rw [Ideal.ofBits_def, Ideal.ofBits_one_f32]
  rfl

/-! ## A pre-activation from its two contractions -/

/-- Two contractions over index functions that are the coordinate ones, each with its bias, added:
    a gate's pre-activation. -/
theorem pre_of (rel : Arr3 8 2048 512) (lh : Arr3 8 2048 1024)
    (Ww : Arr2 512 512) (Wb : Arr1 512) (Uw : Arr2 512 1024) (Ub : Arr1 512)
    (b : Fin 8) (s : Fin 2048) (o : Fin 512)
    (li : Fin 512 → S8x2048x512.Idx) (ri : Fin 512 → S512x512.Idx)
    (lj : Fin 1024 → S8x2048x1024.Idx) (rj : Fin 1024 → S512x1024.Idx) (bi bj : S512.Idx)
    (hli : li = fun q => ix3 b s q) (hri : ri = fun q => ix2 o q)
    (hlj : lj = fun q => ix3 b s q) (hrj : rj = fun q => ix2 o q) (hbi : bi = ix1 o) (hbj : bj = ix1 o) :
    ((∑ q : Fin 512, rel (li q) * Ww (ri q)) + Wb bi) + ((∑ q : Fin 1024, lh (lj q) * Uw (rj q)) + Ub bj)
      = pre rel lh Ww Wb Uw Ub b s o := by
  subst hli hri hlj hrj hbi hbj
  rfl

/-- The forget gate's pre-activation for one child, from its two contractions and two biases. -/
theorem preF_of (rel : Arr3 8 2048 512) (lh : Arr3 8 2048 1024)
    (Wf : Arr3 2 512 512) (Wfb : Arr2 2 512) (Uf : Arr3 2 512 1024) (Ufb : Arr2 2 512)
    (b : Fin 8) (s : Fin 2048) (k : Fin 2) (o : Fin 512)
    (li : Fin 512 → S8x2048x512.Idx) (ri : Fin 512 → S2x512x512.Idx)
    (lj : Fin 1024 → S8x2048x1024.Idx) (rj : Fin 1024 → S2x512x1024.Idx) (bi bj : S2x512.Idx)
    (hli : li = fun q => ix3 b s q) (hri : ri = fun q => ix3 k o q)
    (hlj : lj = fun q => ix3 b s q) (hrj : rj = fun q => ix3 k o q) (hbi : bi = ix2 k o) (hbj : bj = ix2 k o) :
    (((∑ q : Fin 512, rel (li q) * Wf (ri q)) + Wfb bi) + ∑ q : Fin 1024, lh (lj q) * Uf (rj q)) + Ufb bj
      = preF rel lh Wf Wfb Uf Ufb b s k o := by
  subst hli hri hlj hrj hbi hbj
  rfl

/-! ## The input gate -/

/-- The input gate's pre-activation, read at one element. -/
theorem pre_i (b : Fin 8) (s : Fin 2048) (o : Fin 512) :
    val_main_v23 (F := Ideal) x0 x1 x3 x4 x5 x6 x7 x8 (ix3 b s o)
      = pre (val_main_v7 (F := Ideal) x0 x4) (val_main_v14 (F := Ideal) x1 x3) x5 x6 x7 x8 b s o := by
  rw [val_main_v23_apply, val_main_v18_apply, val_main_v22_apply, val_main_v15_apply, val_main_v19_apply,
    val_main_v17_apply, val_main_v16_apply, val_main_v21_apply, val_main_v20_apply]
  exact pre_of _ _ x5 x6 x7 x8 b s o
    (lidx_main_v15 (ix3 b s o)) (ridx_main_v15 (ix3 b s o)) (lidx_main_v19 (ix3 b s o)) (ridx_main_v19 (ix3 b s o))
    (idx_main_v16 (idx_main_v17 (ix3 b s o))) (idx_main_v20 (idx_main_v21 (ix3 b s o)))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl))
    (funext fun a => Fin.ext (by match a with | ⟨0, _⟩ => rfl)) (funext fun a => Fin.ext (by match a with | ⟨0, _⟩ => rfl))

/-- The input gate: the logistic function of its pre-activation. -/
theorem gate_i (b : Fin 8) (s : Fin 2048) (o : Fin 512) :
    val_main_v29 (F := Ideal) x0 x1 x3 x4 x5 x6 x7 x8 (ix3 b s o)
      = Ideal.logistic (pre (val_main_v7 (F := Ideal) x0 x4) (val_main_v14 (F := Ideal) x1 x3) x5 x6 x7 x8 b s o) := by
  rw [val_main_v29_apply, val_main_v28_apply, val_main_cst_1_apply, val_main_v27_apply, val_main_v26_apply,
    val_main_cst_apply, val_main_v25_apply, val_main_v24_apply, pre_i]
  exact sig_spelling _

/-! ## The output gate -/

/-- The output gate's pre-activation, read at one element. -/
theorem pre_o (b : Fin 8) (s : Fin 2048) (o : Fin 512) :
    val_main_v53 (F := Ideal) x0 x1 x3 x4 x13 x14 x15 x16 (ix3 b s o)
      = pre (val_main_v7 (F := Ideal) x0 x4) (val_main_v14 (F := Ideal) x1 x3) x13 x14 x15 x16 b s o := by
  rw [val_main_v53_apply, val_main_v48_apply, val_main_v52_apply, val_main_v45_apply, val_main_v49_apply,
    val_main_v47_apply, val_main_v46_apply, val_main_v51_apply, val_main_v50_apply]
  exact pre_of _ _ x13 x14 x15 x16 b s o
    (lidx_main_v45 (ix3 b s o)) (ridx_main_v45 (ix3 b s o)) (lidx_main_v49 (ix3 b s o)) (ridx_main_v49 (ix3 b s o))
    (idx_main_v46 (idx_main_v47 (ix3 b s o))) (idx_main_v50 (idx_main_v51 (ix3 b s o)))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl))
    (funext fun a => Fin.ext (by match a with | ⟨0, _⟩ => rfl)) (funext fun a => Fin.ext (by match a with | ⟨0, _⟩ => rfl))

/-- The output gate: the logistic function of its pre-activation. -/
theorem gate_o (b : Fin 8) (s : Fin 2048) (o : Fin 512) :
    val_main_v59 (F := Ideal) x0 x1 x3 x4 x13 x14 x15 x16 (ix3 b s o)
      = Ideal.logistic (pre (val_main_v7 (F := Ideal) x0 x4) (val_main_v14 (F := Ideal) x1 x3) x13 x14 x15 x16 b s o) := by
  rw [val_main_v59_apply, val_main_v58_apply, val_main_cst_5_apply, val_main_v57_apply, val_main_v56_apply,
    val_main_cst_4_apply, val_main_v55_apply, val_main_v54_apply, pre_o]
  exact sig_spelling _

/-! ## The candidate -/

/-- The candidate's pre-activation, read at one element. -/
theorem pre_c (b : Fin 8) (s : Fin 2048) (o : Fin 512) :
    val_main_v68 (F := Ideal) x0 x1 x3 x4 x17 x18 x19 x20 (ix3 b s o)
      = pre (val_main_v7 (F := Ideal) x0 x4) (val_main_v14 (F := Ideal) x1 x3) x17 x18 x19 x20 b s o := by
  rw [val_main_v68_apply, val_main_v63_apply, val_main_v67_apply, val_main_v60_apply, val_main_v64_apply,
    val_main_v62_apply, val_main_v61_apply, val_main_v66_apply, val_main_v65_apply]
  exact pre_of _ _ x17 x18 x19 x20 b s o
    (lidx_main_v60 (ix3 b s o)) (ridx_main_v60 (ix3 b s o)) (lidx_main_v64 (ix3 b s o)) (ridx_main_v64 (ix3 b s o))
    (idx_main_v61 (idx_main_v62 (ix3 b s o))) (idx_main_v65 (idx_main_v66 (ix3 b s o)))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl))
    (funext fun a => Fin.ext (by match a with | ⟨0, _⟩ => rfl)) (funext fun a => Fin.ext (by match a with | ⟨0, _⟩ => rfl))

/-- The candidate: the hyperbolic tangent of its pre-activation. -/
theorem cand (b : Fin 8) (s : Fin 2048) (o : Fin 512) :
    val_main_v69 (F := Ideal) x0 x1 x3 x4 x17 x18 x19 x20 (ix3 b s o)
      = Ideal.tanh (pre (val_main_v7 (F := Ideal) x0 x4) (val_main_v14 (F := Ideal) x1 x3) x17 x18 x19 x20 b s o) := by
  rw [val_main_v69_apply, pre_c]
  rfl

/-! ## The forget gates -/

/-- The forget gate's pre-activation for child `k`, read at one element. -/
theorem pre_f (b : Fin 8) (s : Fin 2048) (k : Fin 2) (o : Fin 512) :
    val_main_v38 (F := Ideal) x0 x1 x3 x4 x9 x10 x11 x12 (ix4 b s k o)
      = preF (val_main_v7 (F := Ideal) x0 x4) (val_main_v14 (F := Ideal) x1 x3) x9 x10 x11 x12 b s k o := by
  rw [val_main_v38_apply, val_main_v35_apply, val_main_v33_apply, val_main_v30_apply, val_main_v34_apply,
    val_main_v32_apply, val_main_v31_apply, val_main_v37_apply, val_main_v36_apply]
  exact preF_of _ _ x9 x10 x11 x12 b s k o
    (lidx_main_v30 (ix4 b s k o)) (ridx_main_v30 (ix4 b s k o)) (lidx_main_v34 (ix4 b s k o)) (ridx_main_v34 (ix4 b s k o))
    (idx_main_v31 (idx_main_v32 (ix4 b s k o))) (idx_main_v36 (idx_main_v37 (ix4 b s k o)))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl | ⟨2, _⟩ => rfl))
    (funext fun q => funext fun a => Fin.ext (by match a with | ⟨0, _⟩ => rfl | ⟨1, _⟩ => rfl | ⟨2, _⟩ => rfl)) (funext fun q => funext fun a => Fin.ext (by match a with | ⟨0, _⟩ => rfl | ⟨1, _⟩ => rfl | ⟨2, _⟩ => rfl))
    (funext fun a => Fin.ext (by match a with | ⟨0, _⟩ => rfl | ⟨1, _⟩ => rfl)) (funext fun a => Fin.ext (by match a with | ⟨0, _⟩ => rfl | ⟨1, _⟩ => rfl))

/-- The forget gate for child `k`: the logistic function of its pre-activation. -/
theorem gate_f (b : Fin 8) (s : Fin 2048) (k : Fin 2) (o : Fin 512) :
    val_main_v44 (F := Ideal) x0 x1 x3 x4 x9 x10 x11 x12 (ix4 b s k o)
      = Ideal.logistic (preF (val_main_v7 (F := Ideal) x0 x4) (val_main_v14 (F := Ideal) x1 x3) x9 x10 x11 x12 b s k o) := by
  rw [val_main_v44_apply, val_main_v43_apply, val_main_cst_3_apply, val_main_v42_apply, val_main_v41_apply,
    val_main_cst_2_apply, val_main_v40_apply, val_main_v39_apply, pre_f]
  exact sig_spelling _

/-- The children's contexts weighted by their forget gates and summed over the two children (from zero). -/
theorem sum_f (b : Fin 8) (s : Fin 2048) (o : Fin 512) :
    val_main_v72 (F := Ideal) x0 x1 x2 x3 x4 x9 x10 x11 x12 (ix3 b s o)
      = ∑ k : Fin 2, Ideal.logistic (preF (val_main_v7 (F := Ideal) x0 x4) (val_main_v14 (F := Ideal) x1 x3) x9 x10 x11 x12 b s k o)
          * (val_main_v13 (F := Ideal) x2 x3) (ix4 b s k o) := by
  rw [val_main_v72_apply, val_main_cst_6_apply, Ideal.ofBits_def, Ideal.ofBits_zero_f32, zero_add]
  refine Finset.sum_congr rfl fun k _ => ?_
  rw [show idx_main_v72 (ix3 b s o) k = ix4 b s k o from funext fun a => Fin.ext (by match a with | ⟨0, _⟩ => rfl | ⟨1, _⟩ => rfl | ⟨2, _⟩ => rfl | ⟨3, _⟩ => rfl),
    val_main_v71_apply, gate_f]
  rfl

/-! ## The two results -/

/-- The new context, at one element. -/
theorem ref_c (b : Fin 8) (s : Fin 2048) (o : Fin 512) :
    val_main_v73 (F := Ideal) x0 x1 x2 x3 x4 x5 x6 x7 x8 x9 x10 x11 x12 x17 x18 x19 x20 (ix3 b s o)
      = cellC (val_main_v7 (F := Ideal) x0 x4) (val_main_v14 (F := Ideal) x1 x3) (val_main_v13 (F := Ideal) x2 x3)
          (prmR x5 x6 x7 x8 x9 x10 x11 x12 x13 x14 x15 x16 x17 x18 x19 x20) b s o := by
  rw [val_main_v73_apply, val_main_v70_apply, gate_i, cand, sum_f]
  rfl

/-- The new hidden state, at one element. -/
theorem ref_h (b : Fin 8) (s : Fin 2048) (o : Fin 512) :
    val_main_v75 (F := Ideal) x0 x1 x2 x3 x4 x5 x6 x7 x8 x9 x10 x11 x12 x13 x14 x15 x16 x17 x18 x19 x20 (ix3 b s o)
      = cellH (val_main_v7 (F := Ideal) x0 x4) (val_main_v14 (F := Ideal) x1 x3) (val_main_v13 (F := Ideal) x2 x3)
          (prmR x5 x6 x7 x8 x9 x10 x11 x12 x13 x14 x15 x16 x17 x18 x19 x20) b s o := by
  rw [val_main_v75_apply, val_main_v74_apply,
    ref_c x0 x1 x2 x3 x4 x5 x6 x7 x8 x9 x10 x11 x12 x13 x14 x15 x16 x17 x18 x19 x20, gate_o]
  rfl

end Cert.ReferenceIdeal.Cell

end
-- ==== Proof.Shared.lean ====
/-
  The two programs compute the embedded relation rows and the gathered children's rows with the
  same operations on the same arguments: the arrays are equal.

  Before the fused cell runs, the program performs five stretches of operations one after the other.
  What a buffer holds after a stretch is read off stretch by stretch, from any contents `W` before it:
  a buffer the stretch does not write keeps its contents, and a buffer it writes holds its operation's
  value at the operands' contents.  The embedded relation rows come from the first stretch alone; the
  children's hidden rows from the first child's take-along-axis (second stretch) and two reshapes; the
  children's context rows from the second child's take-along-axis (fourth stretch) and one reshape.
  The composed terms are the reference's own stage by stage, the shape and gather records of the two
  programs being equal literals.
-/
import proofs.«127134_j38998303048339_1_alg».proof.Proof.HostArrays
import proofs.«127134_j38998303048339_1_alg».proof.Proof.ReferenceIdealRead

noncomputable section

namespace Cert.KernelIdeal.Host

open Cert.KernelIdeal Cert.KernelIdeal.Gen Cert.TreeCell Idealize.ShloMosaic Idealize.ShloMosaic.TcCoe Idealize.ShloMosaic.ValueIdx
open Idealize.SL.Sem

/-! ## The stretches, one at a time -/

namespace Shared

open Idealize.ShloMosaic.StableHlo

section Stages

variable {F : FTy → Type} [FloatOps F]

/-- The buffers at the region's entry: the five stretches of operations one after the other. -/
theorem V_split (m : (ℓ : Loc nD τ sig) → Buf (Elt F) ℓ) (c : Dev nD) (b : Ref sig .tc) :
    V m c b = StableHlo.after hostOps0_4 (StableHlo.after hostOps0_3 (StableHlo.after hostOps0_2 (StableHlo.after hostOps0_1
      (StableHlo.after hostOps0 (fun b => m (c, b)))))) (Proc.devRef .tc b) := by
  dsimp only [Gen.V]
  simp only [List.flatten_cons, List.flatten_nil, List.append_nil, StableHlo.after_append]

/-- An index below zero counts from the end of the 4096 rows. -/
def wrapIdx (idx : (⟨S8x4096x1, .i32⟩ : BufTy).Contents (Elt F)) : (⟨S8x4096x1, .i32⟩ : BufTy).Contents (Elt F) :=
  select (cmpi .slt idx (broadcastInDim S8x4096x1 ![] bcast_S_S8x4096x1 (constantI S_ 32 0#32)))
    (addi idx (broadcastInDim S8x4096x1 ![] bcast_S_S8x4096x1 (constantI S_ 32 4096#32))) idx

/-- Whether a wrapped index lies in 0 … 4095. -/
def inRange (w : (⟨S8x4096x1, .i32⟩ : BufTy).Contents (Elt F)) : (⟨S8x4096, .i1⟩ : BufTy).Contents (Elt F) :=
  Host.reduce IntOp.andi
    (andi (cmpi .sge w (broadcastInDim S8x4096x1 ![] bcast_S_S8x4096x1 (constantI S_ 32 0#32)))
      (cmpi .sle w (broadcastInDim S8x4096x1 ![0, 1, 2] bcast_S1x1x1_S8x4096x1_0_1_2
        (broadcastInDim S1x1x1 ![2] bcast_S1_S1x1x1_2 (constantI S1 32 4095#32)))))
    (constantI S_ 1 1#1) reducesTo_S8x4096x1_S8x4096_d2 h_S_

/-- The rows of `x` picked by the indices along axis 1; a row whose index is out of range is the filler constant. -/
def takeRows (x : (⟨S8x4096x512, .f32⟩ : BufTy).Contents (Elt F)) (idx : (⟨S8x4096x1, .i32⟩ : BufTy).Contents (Elt F)) : (⟨S8x4096x512, .f32⟩ : BufTy).Contents (Elt F) :=
  select (broadcastInDim S8x4096x512 ![0, 1] bcast_S8x4096_S8x4096x512_0_1 (inRange (wrapIdx idx)))
    (Host.gather gather_S8x4096x512_S8x4096x1_S8x4096x512_2_1_0_0_1_2_11512 x (wrapIdx idx))
    (broadcastInDim S8x4096x512 ![] bcast_S_S8x4096x512 (constant S_ .f32 0x7FC00000#32))

variable (W : Valuation τ sig (Elt F))

/-! The first stretch: the embedding rows, the flattened child indices and their column form. -/

theorem after0_v7 :
    StableHlo.after hostOps0 W (Proc.devRef .tc main_v7)
      = Host.gather gather_S64x512_S8x2048x1_S8x2048x512_2_0_n_n_0_2_1512 (W (Proc.devRef .tc main_arg4) : (⟨S64x512, .f32⟩ : BufTy).Contents (Elt F))
          (broadcastInDim S8x2048x1 ![0, 1] bcast_S8x2048_S8x2048x1_0_1
            (select (cmpi .slt (W (Proc.devRef .tc main_arg0) : (⟨S8x2048, .i32⟩ : BufTy).Contents (Elt F)) (broadcastInDim S8x2048 ![] bcast_S_S8x2048 (constantI S_ 32 0#32)))
              (addi (W (Proc.devRef .tc main_arg0) : (⟨S8x2048, .i32⟩ : BufTy).Contents (Elt F)) (broadcastInDim S8x2048 ![] bcast_S_S8x2048 (constantI S_ 32 64#32)))
              (W (Proc.devRef .tc main_arg0) : (⟨S8x2048, .i32⟩ : BufTy).Contents (Elt F)))) := by
  dsimp only [Gen.hostOps0]
  after_results

theorem after0_v0 :
    StableHlo.after hostOps0 W (Proc.devRef .tc main_v0)
      = (shapeCast S8x4096 (W (Proc.devRef .tc main_arg3) : (⟨S8x2048x2, .i32⟩ : BufTy).Contents (Elt F)) shapeCasts_S8x2048x2_S8x4096 : (⟨S8x4096, .i32⟩ : BufTy).Contents (Elt F)) := by
  dsimp only [Gen.hostOps0]
  after_results
  rfl

theorem after0_v8 :
    StableHlo.after hostOps0 W (Proc.devRef .tc main_v8)
      = (broadcastInDim S8x4096x1 ![0, 1] bcast_S8x4096_S8x4096x1_0_1
          (shapeCast S8x4096 (W (Proc.devRef .tc main_arg3) : (⟨S8x2048x2, .i32⟩ : BufTy).Contents (Elt F)) shapeCasts_S8x2048x2_S8x4096 : (⟨S8x4096, .i32⟩ : BufTy).Contents (Elt F)) : (⟨S8x4096x1, .i32⟩ : BufTy).Contents (Elt F)) := by
  dsimp only [Gen.hostOps0]
  after_results
  rfl

theorem after0_arg1 : StableHlo.after hostOps0 W (Proc.devRef .tc main_arg1) = W (Proc.devRef .tc main_arg1) := by
  dsimp only [Gen.hostOps0]
  after_results

theorem after0_arg2 : StableHlo.after hostOps0 W (Proc.devRef .tc main_arg2) = W (Proc.devRef .tc main_arg2) := by
  dsimp only [Gen.hostOps0]
  after_results

/-! The second stretch: the first child's rows. -/

theorem after1_v7 : StableHlo.after hostOps0_1 W (Proc.devRef .tc main_v7) = W (Proc.devRef .tc main_v7) := by
  dsimp only [Gen.hostOps0_1]
  after_results

theorem after1_v0 : StableHlo.after hostOps0_1 W (Proc.devRef .tc main_v0) = W (Proc.devRef .tc main_v0) := by
  dsimp only [Gen.hostOps0_1]
  after_results

theorem after1_arg2 : StableHlo.after hostOps0_1 W (Proc.devRef .tc main_arg2) = W (Proc.devRef .tc main_arg2) := by
  dsimp only [Gen.hostOps0_1]
  after_results

theorem after1_v9 :
    StableHlo.after hostOps0_1 W (Proc.devRef .tc main_v9)
      = takeRows (W (Proc.devRef .tc main_arg1) : (⟨S8x4096x512, .f32⟩ : BufTy).Contents (Elt F)) (W (Proc.devRef .tc main_v8) : (⟨S8x4096x1, .i32⟩ : BufTy).Contents (Elt F)) := by
  dsimp only [Gen.hostOps0_1]
  after_results_simp
  simp only [TRef.ofBuf, TRef.toBuf, cast_eq]
  rfl

/-! The third stretch: the first child's rows as [8, 2048, 2, 512]; the child indices' column form again. -/

theorem after2_v7 : StableHlo.after hostOps0_2 W (Proc.devRef .tc main_v7) = W (Proc.devRef .tc main_v7) := by
  dsimp only [Gen.hostOps0_2]
  after_results

theorem after2_arg2 : StableHlo.after hostOps0_2 W (Proc.devRef .tc main_arg2) = W (Proc.devRef .tc main_arg2) := by
  dsimp only [Gen.hostOps0_2]
  after_results

theorem after2_v10 :
    StableHlo.after hostOps0_2 W (Proc.devRef .tc main_v10)
      = (shapeCast S8x2048x2x512 (W (Proc.devRef .tc main_v9) : (⟨S8x4096x512, .f32⟩ : BufTy).Contents (Elt F)) shapeCasts_S8x4096x512_S8x2048x2x512 : (⟨S8x2048x2x512, .f32⟩ : BufTy).Contents (Elt F)) := by
  dsimp only [Gen.hostOps0_2]
  after_results
  rfl

theorem after2_v11 :
    StableHlo.after hostOps0_2 W (Proc.devRef .tc main_v11)
      = (broadcastInDim S8x4096x1 ![0, 1] bcast_S8x4096_S8x4096x1_0_1 (W (Proc.devRef .tc main_v0) : (⟨S8x4096, .i32⟩ : BufTy).Contents (Elt F)) : (⟨S8x4096x1, .i32⟩ : BufTy).Contents (Elt F)) := by
  dsimp only [Gen.hostOps0_2]
  after_results

/-! The fourth stretch: the second child's rows. -/

theorem after3_v7 : StableHlo.after hostOps0_3 W (Proc.devRef .tc main_v7) = W (Proc.devRef .tc main_v7) := by
  dsimp only [Gen.hostOps0_3]
  after_results

theorem after3_v10 : StableHlo.after hostOps0_3 W (Proc.devRef .tc main_v10) = W (Proc.devRef .tc main_v10) := by
  dsimp only [Gen.hostOps0_3]
  after_results

theorem after3_v12 :
    StableHlo.after hostOps0_3 W (Proc.devRef .tc main_v12)
      = takeRows (W (Proc.devRef .tc main_arg2) : (⟨S8x4096x512, .f32⟩ : BufTy).Contents (Elt F)) (W (Proc.devRef .tc main_v11) : (⟨S8x4096x1, .i32⟩ : BufTy).Contents (Elt F)) := by
  dsimp only [Gen.hostOps0_3]
  after_results_simp
  simp only [TRef.ofBuf, TRef.toBuf, cast_eq]
  rfl

/-! The fifth stretch: the two reshapes the fused cell's operands start from. -/

theorem after4_v7 : StableHlo.after hostOps0_4 W (Proc.devRef .tc main_v7) = W (Proc.devRef .tc main_v7) := by
  dsimp only [Gen.hostOps0_4]
  after_results

theorem after4_v13 :
    StableHlo.after hostOps0_4 W (Proc.devRef .tc main_v13)
      = (shapeCast S8x2048x2x512 (W (Proc.devRef .tc main_v12) : (⟨S8x4096x512, .f32⟩ : BufTy).Contents (Elt F)) shapeCasts_S8x4096x512_S8x2048x2x512 : (⟨S8x2048x2x512, .f32⟩ : BufTy).Contents (Elt F)) := by
  dsimp only [Gen.hostOps0_4]
  after_results
  rfl

theorem after4_v14 :
    StableHlo.after hostOps0_4 W (Proc.devRef .tc main_v14)
      = (shapeCast S8x2048x1024 (W (Proc.devRef .tc main_v10) : (⟨S8x2048x2x512, .f32⟩ : BufTy).Contents (Elt F)) shapeCasts_S8x2048x2x512_S8x2048x1024 : (⟨S8x2048x1024, .f32⟩ : BufTy).Contents (Elt F)) := by
  dsimp only [Gen.hostOps0_4]
  after_results
  rfl

end Stages

section Finals

/-! The three arrays at the region's entry, at any float instance: the stretches composed, then the reference's stages unfolded. -/

variable {F : FTy → Type} [FloatOps F]
variable (m : (ℓ : Loc nD τ sig) → Buf (Elt F) ℓ) (c : Dev nD)

theorem v7_gen :
    (V m c main_v7 : (⟨S8x2048x512, .f32⟩ : BufTy).Contents (Elt F)) = Cert.ReferenceIdeal.ReadP.val_main_v7 (F := F) (m ((c : Thread nD τ).loc main_arg0)) (m ((c : Thread nD τ).loc main_arg4)) := by
  rw [V_split, after4_v7, after3_v7, after2_v7, after1_v7, after0_v7]
  rfl

theorem v14_gen :
    (V m c main_v14 : (⟨S8x2048x1024, .f32⟩ : BufTy).Contents (Elt F)) = Cert.ReferenceIdeal.ReadP.val_main_v14 (F := F) (m ((c : Thread nD τ).loc main_arg1)) (m ((c : Thread nD τ).loc main_arg3)) := by
  rw [V_split, after4_v14, after3_v10, after2_v10, after1_v9, after0_v8, after0_arg1]
  rfl

theorem v13_gen :
    (V m c main_v13 : (⟨S8x2048x2x512, .f32⟩ : BufTy).Contents (Elt F)) = Cert.ReferenceIdeal.ReadP.val_main_v13 (F := F) (m ((c : Thread nD τ).loc main_arg2)) (m ((c : Thread nD τ).loc main_arg3)) := by
  rw [V_split, after4_v13, after3_v12, after2_v11, after2_arg2, after1_v0, after1_arg2, after0_v0, after0_arg2]
  rfl

end Finals

end Shared

variable (m : (ℓ : Loc nD τ sig) → Buf (Elt Ideal) ℓ) (c : Dev nD)

theorem relK_eq :
    relK m c = Cert.ReferenceIdeal.ReadP.val_main_v7 (F := Ideal) (m ((c : Thread nD τ).loc main_arg0)) (m ((c : Thread nD τ).loc main_arg4)) := by
  unfold relK
  exact Shared.v7_gen m c

theorem lhK_eq :
    lhK m c = Cert.ReferenceIdeal.ReadP.val_main_v14 (F := Ideal) (m ((c : Thread nD τ).loc main_arg1)) (m ((c : Thread nD τ).loc main_arg3)) := by
  unfold lhK
  exact Shared.v14_gen m c

theorem scK_eq :
    scK m c = Cert.ReferenceIdeal.ReadP.val_main_v13 (F := Ideal) (m ((c : Thread nD τ).loc main_arg2)) (m ((c : Thread nD τ).loc main_arg3)) := by
  unfold scK
  exact Shared.v13_gen m c

end Cert.KernelIdeal.Host

end
-- ==== Proof.lean ====
/-
  The certificate of a fused tree cell against its two-layer form.

  Both programs embed the relation ids, gather the two children's hidden and context rows, and
  compute, per batch entry b, position s and feature o,
      c = σ(i)·tanh(c̃) + σ(f₀)·s₀ + σ(f₁)·s₁        h = tanh(c)·σ(o),
  every gate a linear layer of the relation row plus a linear layer of the children's hidden rows.
  The fused program lays the relation row and the children's rows side by side, stacks each gate's
  two weight matrices along the contraction axis, sums the two biases first and contracts once,
  tile by tile over an 8 × 4 grid; the two-layer program contracts twice and adds.  On the extended
  reals a format change is the identity, a sum over 512 + 1024 indices splits into its two parts,
  and addition is commutative and associative: the two programs' results are one function of the
  arguments.  The fused program's arrays are read off its run tile by tile, the two-layer program's
  off its run operation by operation, and the embedded and gathered rows are the same arrays in
  both.  No rewrite separates the fused program from its idealization, and nothing here needs the
  inputs finite.
-/
import proofs.«127134_j38998303048339_1_alg».proof.Defs
import proofs.«127134_j38998303048339_1_alg».proof.Proof.Gen.Kernel
import proofs.«127134_j38998303048339_1_alg».proof.Proof.Gen.Kernel.Skeleton
import proofs.«127134_j38998303048339_1_alg».proof.Proof.Gen.Kernel.Launch
import proofs.«127134_j38998303048339_1_alg».proof.Proof.Gen.Kernel.Points
import proofs.«127134_j38998303048339_1_alg».proof.Proof.Gen.Kernel.Frame
import proofs.«127134_j38998303048339_1_alg».proof.Proof.Gen.KernelIdeal
import proofs.«127134_j38998303048339_1_alg».proof.Proof.Gen.KernelIdeal.Skeleton
import proofs.«127134_j38998303048339_1_alg».proof.Proof.Gen.KernelIdeal.Launch
import proofs.«127134_j38998303048339_1_alg».proof.Proof.Gen.KernelIdeal.Points
import proofs.«127134_j38998303048339_1_alg».proof.Proof.Gen.KernelIdeal.Frame
import proofs.«127134_j38998303048339_1_alg».proof.Proof.Gen.ReferenceIdeal
import proofs.«127134_j38998303048339_1_alg».proof.Proof.Gen.Pre_finite_inputs
import proofs.«127134_j38998303048339_1_alg».proof.Proof.KernelIdealValue
import proofs.«127134_j38998303048339_1_alg».proof.Proof.ReferenceIdealRun
import proofs.«127134_j38998303048339_1_alg».proof.Proof.ReferenceIdealRead
import proofs.«127134_j38998303048339_1_alg».proof.Proof.Arrays
import proofs.«127134_j38998303048339_1_alg».proof.Proof.RefCell
import proofs.«127134_j38998303048339_1_alg».proof.Proof.Shared
import Idealize.ShloMosaic.Adequacy
import Idealize.ShloMosaic.Init

noncomputable section

namespace Cert.Proof

open Idealize.ShloMosaic Idealize.ShloMosaic.ValueIdx Idealize.SL.Sem Cert.TreeCell
open Cert.KernelIdeal.Host Cert.KernelIdeal.Arrays

section claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The two-layer program's run with its two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- The two-layer program's hidden-state result, from arguments that agree with the fused program's, is
    the cell's hidden-state array of the fused program's embedded and gathered rows. -/
theorem ref_hidden (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.RunP.res_main_v75 m' c = arrH (relK m c) (lhK m c) (scK m c) (prm m c) := by
  rw [Cert.ReferenceIdeal.ReadP.val_main_v75_eq, h0, h1, h2, h3, h4, h5, h6, h7, h8, h9, h10, h11, h12, h13, h14, h15, h16, h17, h18, h19, h20]
  funext i
  obtain ⟨b, s, o, rfl⟩ : ∃ (b : Fin 8) (s : Fin 2048) (o : Fin 512), i = ix3 b s o := ⟨i 0, i 1, i 2, eq_ix3 i⟩
  rw [Cert.ReferenceIdeal.Cell.ref_h, relK_eq, lhK_eq, scK_eq]
  rfl

/-- The same for the context result. -/
theorem ref_context (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.RunP.res_main_v73 m' c = arrC (relK m c) (lhK m c) (scK m c) (prm m c) := by
  rw [Cert.ReferenceIdeal.ReadP.val_main_v73_eq, h0, h1, h2, h3, h4, h5, h6, h7, h8, h9, h10, h11, h12, h17, h18, h19, h20]
  funext i
  obtain ⟨b, s, o, rfl⟩ : ∃ (b : Fin 8) (s : Fin 2048) (o : Fin 512), i = ix3 b s o := ⟨i 0, i 1, i 2, eq_ix3 i⟩
  rw [Cert.ReferenceIdeal.Cell.ref_c (x13 := (m ((c.tc : Thread Cert.KernelIdeal.nD Cert.KernelIdeal.τ).loc Cert.KernelIdeal.main_arg13))) (x14 := (m ((c.tc : Thread Cert.KernelIdeal.nD Cert.KernelIdeal.τ).loc Cert.KernelIdeal.main_arg14))) (x15 := (m ((c.tc : Thread Cert.KernelIdeal.nD Cert.KernelIdeal.τ).loc Cert.KernelIdeal.main_arg15))) (x16 := (m ((c.tc : Thread Cert.KernelIdeal.nD Cert.KernelIdeal.τ).loc Cert.KernelIdeal.main_arg16))), relK_eq, lhK_eq, scK_eq]
  rfl

/-- Both programs end with the cell's two arrays of the same embedded and gathered rows. -/
theorem algebraic : Cert.algebraic_KernelIdeal_ReferenceIdeal := by
  intro m ρ m' ρ' _ hagree
  refine ⟨fun c => arrH (relK m c) (lhK m c) (scK m c) (prm m c), fun c => arrC (relK m c) (lhK m c) (scK m c) (prm m c), ?_, ?_⟩
  · exact (θ_run Cert.KernelIdeal.defs _ _).mono
      (fun r h c => ⟨(h c).1.trans (finalH m c), (h c).2.1.trans (finalC m c), (h c).2.2⟩)
      (Cert.KernelIdeal.ValueP.run_blocks m ρ)
  · refine (θ_run Cert.ReferenceIdeal.defs _ _).mono (fun r h c => ⟨(h c).1.trans ?_, (h c).2.1.trans ?_, (h c).2.2⟩)
      (Cert.ReferenceIdeal.RunP.run (F := Ideal) m' ρ')
    · obtain ⟨h0, h1, h2, h3, h4, h5, h6, h7, h8, h9, h10, h11, h12, h13, h14, h15, h16, h17, h18, h19, h20⟩ := hagree c
      exact ref_hidden m m' c h0 h1 h2 h3 h4 h5 h6 h7 h8 h9 h10 h11 h12 h13 h14 h15 h16 h17 h18 h19 h20
    · obtain ⟨h0, h1, h2, h3, h4, h5, h6, h7, h8, h9, h10, h11, h12, h13, h14, h15, h16, h17, h18, h19, h20⟩ := hagree c
      exact ref_context m m' c h0 h1 h2 h3 h4 h5 h6 h7 h8 h9 h10 h11 h12 h13 h14 h15 h16 h17 h18 h19 h20

end claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
